-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_v13 : IVec S_ 1) (main_v15 : IVec S2x1600000 1) (main_c_5 : IVec S_ 1) : IVec S_ 1 :=
  let main_v16 : IVec S_ 1 := (fun x v => Host.reduce IntOp.andi x v reducesTo_S2x1600000_S_d0_1 h_S_) main_v15 main_c_5
  let main_v17 : IVec S_ 1 := andi main_v13 main_v16
  let main_c_6 : IVec S_ 32 := constantI S_ 32 50000#32
  let main_v18 : IVec S2x1600000 32 := broadcastInDim S2x1600000 ![] bcast_S_S2x1600000 main_c_6
  let main_v19 : IVec S2x1600000 1 := cmpi .slt main_arg1 main_v18
  let main_c_7 : IVec S_ 1 := constantI S_ 1 1#1
  let main_v20 : IVec S_ 1 := (fun x v => Host.reduce IntOp.andi x v reducesTo_S2x1600000_S_d0_1 h_S_) main_v19 main_c_7
  let main_v21 : IVec S_ 1 := andi main_v17 main_v20
  main_v21

def fn {F : FTy → Type} [FloatOps F] (main_arg0 : FVec F S50000x128 .f32) (main_arg1 : IVec S2x1600000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S2x1600000 32 := broadcastInDim S2x1600000 ![] bcast_S_S2x1600000 main_c_4
  let main_v15 : IVec S2x1600000 1 := cmpi .sge main_arg1 main_v14
  let main_c_5 : IVec S_ 1 := constantI S_ 1 1#1
  fn_part1 (F := F) main_arg1 main_v13 main_v15 main_c_5
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩
abbrev S5000x127 : Shape := ⟨2, ![5000, 127]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩

abbrev nBuf : Space → Nat
  | .hbm => 82
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S50000x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1, .i32⟩
  | .hbm, ⟨19, _⟩ => ⟨S_, .i32⟩
  | .hbm, ⟨20, _⟩ => ⟨S1600000x1, .i32⟩
  | .hbm, ⟨21, _⟩ => ⟨S1600000x1, .i1⟩
  | .hbm, ⟨22, _⟩ => ⟨S1x1, .i32⟩
  | .hbm, ⟨23, _⟩ => ⟨S1600000x1, .i32⟩
  | .hbm, ⟨24, _⟩ => ⟨S1600000x1, .i1⟩
  | .hbm, ⟨25, _⟩ => ⟨S1600000x1, .i1⟩
  | .hbm, ⟨26, _⟩ => ⟨S_, .i1⟩
  | .hbm, ⟨27, _⟩ => ⟨S1600000, .i1⟩
  | .hbm, ⟨28, _⟩ => ⟨S1600000x128, .f32⟩
  | .hbm, ⟨29, _⟩ => ⟨S1600000x128, .i1⟩
  | .hbm, ⟨30, _⟩ => ⟨S_, .f32⟩
  | .hbm, ⟨31, _⟩ => ⟨S1600000x128, .f32⟩
  | .hbm, ⟨32, _⟩ => ⟨S1600000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1, .i32⟩
  | .hbm, ⟨42, _⟩ => ⟨S_, .i32⟩
  | .hbm, ⟨43, _⟩ => ⟨S1600000x1, .i32⟩
  | .hbm, ⟨44, _⟩ => ⟨S1600000x1, .i1⟩
  | .hbm, ⟨45, _⟩ => ⟨S1x1, .i32⟩
  | .hbm, ⟨46, _⟩ => ⟨S1600000x1, .i32⟩
  | .hbm, ⟨47, _⟩ => ⟨S1600000x1, .i1⟩
  | .hbm, ⟨48, _⟩ => ⟨S1600000x1, .i1⟩
  | .hbm, ⟨49, _⟩ => ⟨S_, .i1⟩
  | .hbm, ⟨50, _⟩ => ⟨S1600000, .i1⟩
  | .hbm, ⟨51, _⟩ => ⟨S1600000x128, .f32⟩
  | .hbm, ⟨52, _⟩ => ⟨S1600000x128, .i1⟩
  | .hbm, ⟨53, _⟩ => ⟨S_, .f32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S1600000, .f32⟩
  | .hbm, ⟨59, _⟩ => ⟨S1600000x1, .f32⟩
  | .hbm, ⟨60, _⟩ => ⟨S1600000, .f32⟩
  | .hbm, ⟨61, _⟩ => ⟨S_, .f32⟩
  | .hbm, ⟨62, _⟩ => ⟨S1600000, .f32⟩
  | .hbm, ⟨63, _⟩ => ⟨S1600000, .f32⟩
  | .hbm, ⟨64, _⟩ => ⟨S1600000x1, .f32⟩
  | .hbm, ⟨65, _⟩ => ⟨S1600000, .f32⟩
  | .hbm, ⟨66, _⟩ => ⟨S1600000, .f32⟩
  | .hbm, ⟨67, _⟩ => ⟨S1600000, .f32⟩
  | .hbm, ⟨68, _⟩ => ⟨S_, .f32⟩
  | .hbm, ⟨69, _⟩ => ⟨S1600000, .f32⟩
  | .hbm, ⟨70, _⟩ => ⟨S1600000, .f32⟩
  | .hbm, ⟨71, _⟩ => ⟨S1600000, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1600000, .f32⟩
  | .hbm, ⟨76, _⟩ => ⟨S1600000, .f32⟩
  | .hbm, ⟨77, _⟩ => ⟨S_, .f32⟩
  | .hbm, ⟨78, _⟩ => ⟨S1600000, .f32⟩
  | .hbm, ⟨79, _⟩ => ⟨S1600000, .f32⟩
  | .hbm, ⟨80, _⟩ => ⟨S1600000, .f32⟩
  | .hbm, ⟨81, _⟩ => ⟨S1600000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v6 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v7 : Ref sig .tc := ⟨.hbm, 55, rfl⟩
abbrev main_v8 : Ref sig .tc := ⟨.hbm, 56, rfl⟩
abbrev main_cst : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_cst_0 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_cst_1 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_cst_2 : Ref sig .tc := ⟨.hbm, 72, rfl⟩
abbrev main_cst_3 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  slices_S5000x128_o0_0_S5000x127 : S5000x128.Slices ![0, 0] S5000x127
  concatenates_S5000x1_S5000x127_S5000x128_d1 : Shape.Concatenates [S5000x1, S5000x127] S5000x128 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  reducesTo_S1600000x128_S1600000_d1 : S1600000x128.ReducesTo [1] S1600000
  slices_S1600000x128_S1600000x1_0_0 : S1600000x128.Slices ![0, 0] S1600000x1
  shapeCasts_S1600000x1_S1600000 : S1600000x1.ShapeCasts S1600000
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S50000 : Shape := ⟨1, ![50000]⟩
abbrev S50000x1 : Shape := ⟨2, ![50000, 1]⟩
abbrev S50000x129 : Shape := ⟨2, ![50000, 129]⟩
abbrev S1x1600000 : Shape := ⟨2, ![1, 1600000]⟩
abbrev S1600000 : Shape := ⟨1, ![1600000]⟩
abbrev S1600000x1 : Shape := ⟨2, ![1600000, 1]⟩
abbrev S1600000x129 : Shape := ⟨2, ![1600000, 129]⟩
abbrev S1600000x127 : Shape := ⟨2, ![1600000, 127]⟩

abbrev nBuf : Space → Nat
  | .hbm => 66
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S50000x128, .f32⟩
  | .hbm, ⟨6, _⟩ => ⟨S1x128, .f32⟩
  | .hbm, ⟨7, _⟩ => ⟨S50000x128, .f32⟩
  | .hbm, ⟨8, _⟩ => ⟨S50000x128, .f32⟩
  | .hbm, ⟨9, _⟩ => ⟨S50000x128, .f32⟩
  | .hbm, ⟨10, _⟩ => ⟨S_, .f32⟩
  | .hbm, ⟨11, _⟩ => ⟨S50000, .f32⟩
  | .hbm, ⟨12, _⟩ => ⟨S50000x1, .f32⟩
  | .hbm, ⟨13, _⟩ => ⟨S_, .f32⟩
  | .hbm, ⟨14, _⟩ => ⟨S50000x1, .f32⟩
  | .hbm, ⟨15, _⟩ => ⟨S50000x1, .f32⟩
  | .hbm, ⟨16, _⟩ => ⟨S50000x1, .f32⟩
  | .hbm, ⟨17, _⟩ => ⟨S50000x129, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x129, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x129, .f32⟩
  | .hbm, ⟨40, _⟩ => ⟨S1600000x1, .f32⟩
  | .hbm, ⟨41, _⟩ => ⟨S1600000, .f32⟩
  | .hbm, ⟨42, _⟩ => ⟨S1600000, .f32⟩
  | .hbm, ⟨43, _⟩ => ⟨S1600000x1, .f32⟩
  | .hbm, ⟨44, _⟩ => ⟨S1600000, .f32⟩
  | .hbm, ⟨45, _⟩ => ⟨S1600000, .f32⟩
  | .hbm, ⟨46, _⟩ => ⟨S1600000x127, .f32⟩
  | .hbm, ⟨47, _⟩ => ⟨S1600000x127, .f32⟩
  | .hbm, ⟨48, _⟩ => ⟨S1600000x127, .f32⟩
  | .hbm, ⟨49, _⟩ => ⟨S_, .f32⟩
  | .hbm, ⟨50, _⟩ => ⟨S1600000, .f32⟩
  | .hbm, ⟨51, _⟩ => ⟨S1600000, .f32⟩
  | .hbm, ⟨52, _⟩ => ⟨S_, .f32⟩
  | .hbm, ⟨53, _⟩ => ⟨S1600000, .f32⟩
  | .hbm, ⟨54, _⟩ => ⟨S1600000, .f32⟩
  | .hbm, ⟨55, _⟩ => ⟨S1600000, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1600000, .f32⟩
  | .hbm, ⟨60, _⟩ => ⟨S1600000, .f32⟩
  | .hbm, ⟨61, _⟩ => ⟨S_, .f32⟩
  | .hbm, ⟨62, _⟩ => ⟨S1600000, .f32⟩
  | .hbm, ⟨63, _⟩ => ⟨S1600000, .f32⟩
  | .hbm, ⟨64, _⟩ => ⟨S1600000, .f32⟩
  | .hbm, ⟨65, _⟩ => ⟨S1600000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_cst_7 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  concatenates_S50000x1_S50000x128_S50000x129_d1 : Shape.Concatenates [S50000x1, S50000x128] S50000x129 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S1600000x129_S1600000x1_0_0 : S1600000x129.Slices ![0, 0] S1600000x1
  shapeCasts_S1600000x1_S1600000 : S1600000x1.ShapeCasts S1600000
  slices_S1600000x129_S1600000x127_0_1 : S1600000x129.Slices ![0, 1] S1600000x127
  reducesTo_S1600000x127_S1600000_d1 : S1600000x127.ReducesTo [1] S1600000
  dot_S50000x128_S128x128_S50000x128_1_0_0_1_n_n_wf : DotDims.WF S50000x128 S128x128 S50000x128 [1] [0] [0] [1] [] []
  gather_S50000x129_S1600000x1_S1600000x129_1_0_n_n_0_1_1129_wf : GatherDims.WF S50000x129 S1600000x1 S1600000x129 [1] [0] [] [0] [] 1 ![1, 129]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x129_S1600000x1_S1600000x129_1_0_n_n_0_1_1129 : GatherDims S50000x129 S1600000x1 S1600000x129 where
  offsetDims := [1]
  collapsedSliceDims := [0]
  operandBatchingDims := []
  startIndicesBatchingDims := []
  startIndexMap := [0]
  indexVectorDim := 1
  sliceSizes := ![1, 129]
  wf := gather_S50000x129_S1600000x1_S1600000x129_1_0_n_n_0_1_1129_wf

class Facts : Prop extends Facts₀ where

variable [Facts]
-- ==== Proof.FrameBits.lean ====
/-
  The frame of `Kernel`: @main is one host line (the transpose of the weight), one pipelined kernel over a grid of ten
  row blocks, and 76 host lines that only read what the kernel wrote and write buffers of their own.

  What is proved here, at any float instance `F`. (1) The kernel's body at a grid point: it is handed the point's block
  of `x` (5000 rows), the transposed weight and the bias in its three input staging buffers and anything in its output
  staging buffer; it loads the three, loads the output buffer (a value it never uses) and stores ONE value over the whole
  output block, the body's arithmetic `k0_pay1` of the three loads; it leaves the inputs as they were. (2) The proof
  data of the pipeline: the arrays as the region finds them after the transpose, each input buffer at its block after
  the body, the output buffer at `blockOut` of the three input blocks. An input fetched only at the first point (the
  weight, the bias: their block index never moves) still holds its block at every later point. (3) The 76 later lines:
  each touches TensorCore buffers only, allocates nothing, and writes only its own result buffer, which is none of the
  four arrays of the pipeline and none of the four arguments; the list `tailWritten` names those 76 buffers, and every
  fact of this kind is membership in that list. (4) The run: every fair execution of @main terminates without a fault;
  the output array ends at what the write-backs of the ten points leave (`Dat.arrAt`), every buffer outside the pipeline
  at what the later lines compute from that (`afterTail₀`); the four arguments end as they were launched.
-/
import proofs.«417361_j56788057588127_3_alg».proof.Proof.Gen.Kernel.Launch
import proofs.«417361_j56788057588127_3_alg».proof.Proof.Gen.Kernel.Skeleton
import proofs.«417361_j56788057588127_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the kernel, stretch by stretch: the two rows of the edge list, the two row gathers, the inner
    product, the clip, the exponential. -/
abbrev tailOps : List (List (HloOp τ sig (Elt F))) :=
  [hostOps1, hostOps1_1, hostOps1_2, hostOps1_3, hostOps1_4, hostOps1_5]

/-- The device's buffers when the kernel starts: the launch contents after the transpose of the weight. -/
abbrev V0 (c : Dev nD) : Valuation τ sig (Elt F) := StableHlo.after (List.flatten [hostOps0]) (fun b => m (c, b))
/-- The same, read at a TensorCore buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := rfl

/-- @main is the transpose, then the kernel's region, then the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## The later lines write buffers of their own -/

/-- The 76 buffers the later lines write, one a line, in program order. -/
abbrev tailWritten : List (Ref sig .tc) :=
  [main_v2, main_v3, main_v4, main_v5, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v6, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7, main_v8, main_cst, main_v9, main_v10, main_v11, main_cst_0, main_v12, main_v13, main_v14, main_v15, main_v16, main_v17, main_cst_1, main_v18, main_v19, main_v20, main_cst_2, main_cst_3, main_call2_v0, main_call2_v1, main_call2_v2, main_call2_v3, main_call2_v4, main_v21, main_v22, main_v23]

/-- A line whose one written buffer is on a list writes within the list. -/
theorem single_sub {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

theorem writes1 : (hostOps1 : List (HloOp τ sig (Elt F))).Forall fun op => op.writes ⊆ (tailWritten.map (Proc.devRef (τ := τ) .tc)).toFinset :=
  ⟨single_sub (by decide), single_sub (by decide), single_sub (by decide), single_sub (by decide)⟩
theorem writes1_1 : (hostOps1_1 : List (HloOp τ sig (Elt F))).Forall fun op => op.writes ⊆ (tailWritten.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem writes1_2 : (hostOps1_2 : List (HloOp τ sig (Elt F))).Forall fun op => op.writes ⊆ (tailWritten.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem writes1_3 : (hostOps1_3 : List (HloOp τ sig (Elt F))).Forall fun op => op.writes ⊆ (tailWritten.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem writes1_4 : (hostOps1_4 : List (HloOp τ sig (Elt F))).Forall fun op => op.writes ⊆ (tailWritten.map (Proc.devRef (τ := τ) .tc)).toFinset :=
  ⟨single_sub (by decide), single_sub (by decide), single_sub (by decide), single_sub (by decide), single_sub (by decide), single_sub (by decide)⟩
theorem writes1_5 : (hostOps1_5 : List (HloOp τ sig (Elt F))).Forall fun op => op.writes ⊆ (tailWritten.map (Proc.devRef (τ := τ) .tc)).toFinset :=
  ⟨single_sub (by decide), single_sub (by decide)⟩

theorem fresh1 : (hostOps1 : List (HloOp τ sig (Elt F))).Forall fun op => op.fresh = ∅ := ⟨rfl, rfl, rfl, rfl⟩
theorem fresh1_1 : (hostOps1_1 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl⟩
theorem fresh1_2 : (hostOps1_2 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl⟩
theorem fresh1_3 : (hostOps1_3 : List (HloOp τ sig (Elt F))).Forall fun op => op.fresh = ∅ := ⟨rfl, rfl, rfl, rfl, rfl, rfl, rfl, rfl, rfl, rfl, rfl, rfl, rfl, rfl, rfl, rfl, rfl, rfl⟩
theorem fresh1_4 : (hostOps1_4 : List (HloOp τ sig (Elt F))).Forall fun op => op.fresh = ∅ := ⟨rfl, rfl, rfl, rfl, rfl, rfl⟩
theorem fresh1_5 : (hostOps1_5 : List (HloOp τ sig (Elt F))).Forall fun op => op.fresh = ∅ := ⟨rfl, rfl⟩

/-- The three facts about every later line at once: TensorCore buffers only, nothing allocated, its write on the list. -/
theorem tail_facts : ∀ ops ∈ (tailOps (F := F)), ∀ op ∈ ops,
    op.bufs ⊆ StableHlo.tcRefs τ sig ∧ op.fresh = ∅ ∧ op.writes ⊆ (tailWritten.map (Proc.devRef (τ := τ) .tc)).toFinset := by
  intro ops hops op hop
  simp only [List.mem_cons, List.mem_nil_iff, or_false] at hops
  rcases hops with rfl | rfl | rfl | rfl | rfl | rfl
  · exact ⟨List.forall_iff_forall_mem.mp hostOps1_sub op hop, List.forall_iff_forall_mem.mp fresh1 op hop, List.forall_iff_forall_mem.mp writes1 op hop⟩
  · exact ⟨List.forall_iff_forall_mem.mp hostOps1_1_sub op hop, List.forall_iff_forall_mem.mp fresh1_1 op hop, List.forall_iff_forall_mem.mp writes1_1 op hop⟩
  · exact ⟨List.forall_iff_forall_mem.mp hostOps1_2_sub op hop, List.forall_iff_forall_mem.mp fresh1_2 op hop, List.forall_iff_forall_mem.mp writes1_2 op hop⟩
  · exact ⟨List.forall_iff_forall_mem.mp hostOps1_3_sub op hop, List.forall_iff_forall_mem.mp fresh1_3 op hop, List.forall_iff_forall_mem.mp writes1_3 op hop⟩
  · exact ⟨List.forall_iff_forall_mem.mp hostOps1_4_sub op hop, List.forall_iff_forall_mem.mp fresh1_4 op hop, List.forall_iff_forall_mem.mp writes1_4 op hop⟩
  · exact ⟨List.forall_iff_forall_mem.mp hostOps1_5_sub op hop, List.forall_iff_forall_mem.mp fresh1_5 op hop, List.forall_iff_forall_mem.mp writes1_5 op hop⟩

/-- A buffer off the list is written by no later line. -/
theorem tail_not_writes (b : Ref sig .tc) (hb : b ∉ tailWritten) :
    ∀ ops ∈ (tailOps (F := F)), ∀ op ∈ ops, Proc.devRef (τ := τ) .tc b ∉ op.writes := by
  intro ops hops op hop hw
  obtain ⟨y, hy, he⟩ := List.mem_map.mp (List.mem_toFinset.mp ((tail_facts ops hops op hop).2.2 hw))
  exact hb (Proc.devRef_injective _ he ▸ hy)

theorem tail_sub : ∀ ops ∈ (tailOps (F := F)), ∀ op ∈ ops, op.bufs ⊆ Pipeline.tailRefs sig Pipeline.Prefetch.none spec0 := by
  rw [Pipeline.tailRefs_none spec0 launch0.win.arr_unscoped]
  intro ops hops op hop
  exact Pipeline.sub_ucRefs op (tail_facts ops hops op hop).1

theorem tail_fresh : ∀ ops ∈ (tailOps (F := F)), ∀ op ∈ ops, op.fresh = ∅ :=
  fun ops hops op hop => (tail_facts ops hops op hop).2.1

/-- No later line writes an array of the pipeline. -/
theorem tail_keeps : ∀ ops ∈ (tailOps (F := F)), ∀ op ∈ ops, ∀ w, Proc.devRef .tc (Pipeline.arrRef spec0 w) ∉ op.writes :=
  fun ops hops op hop w => tail_not_writes (Pipeline.arrRef spec0 w) ((by decide : ∀ w, Pipeline.arrRef spec0 w ∉ tailWritten) w) ops hops op hop

/-- A buffer that neither the transpose nor a later line writes, and that is no array of the pipeline, ends as launched. -/
theorem kept_of_not_written (dats : (p : Fin 1) → (c : Dev nD) → Dat τ (Elt F) Unit ℕ (UR sig nD τ) ℕ (cfgs p) c) (c : Dev nD)
    (b : Ref sig .tc) (hb : b ∉ tailWritten) (h0 : b ≠ main_v0) (ha : ∀ w, Pipeline.arrRef spec0 w ≠ b) :
    Pipeline.afterTail₀ cfgs dats 0 (V0 m) tailOps c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      exact tail_not_writes b hb ops hops op hop'),
    Pipeline.withArrays_of_ne _ c (V0 m c) _ b ha]
  exact StableHlo.after_of_forall_not_mem (b := Proc.devRef .tc b) _ _ (fun op hop => by
    simp only [hostOps0, List.flatten_cons, List.flatten_nil, List.append_nil, List.mem_cons, List.mem_nil_iff, or_false] at hop
    subst hop
    simp only [StableHlo.unary_writes, Finset.mem_singleton]
    exact StableHlo.devRef_ne_of_ne h0)

/-- The arguments as the region finds them: the transpose writes only its own result. -/
theorem V_of_ne_v0 (c : Dev nD) (b : Ref sig .tc) (h0 : b ≠ main_v0) : V m c b = m ((c : Thread nD τ).loc b) :=
  StableHlo.after_of_forall_not_mem (b := Proc.devRef .tc b) _ _ (fun op hop => by
    simp only [hostOps0, List.flatten_cons, List.flatten_nil, List.append_nil, List.mem_cons, List.mem_nil_iff, or_false] at hop
    subst hop
    simp only [StableHlo.unary_writes, Finset.mem_singleton]
    exact StableHlo.devRef_ne_of_ne h0)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not fetched the
    block index has not moved since the point that fetched it, and the body left the block in place. Window by window
    (the block's index type is the window's own). -/
theorem before_in0 {c : Dev nD} (dat : Dat τ (Elt F) Unit ℕ (UR sig nD τ) ℕ cfg0 c)
    (hA : dat.A 0 = V m c (Pipeline.arrRef spec0 0)) (hafter : ∀ t, dat.after 0 t = iblk m c 0 t) (t : Fin cfg0.N) (d) :
    dat.before 0 t d = iblk m c 0 t := by
  have hkeep : ∀ t, (cfg0.win 0).cut (cfg0.grid.coords t) (dat.after 0 t) = dat.blockOf 0 t := fun t => by
    rw [hafter]; unfold Dat.blockOf iblk; rw [hA]
  rw [dat.before_in_eq_fetched 0 rfl (fun _ => rfl) (fun _ _ _ => rfl) hkeep t d]
  unfold Dat.fetched Dat.blockOf iblk; rw [hA]; rfl
theorem before_in1 {c : Dev nD} (dat : Dat τ (Elt F) Unit ℕ (UR sig nD τ) ℕ cfg0 c)
    (hA : dat.A 1 = V m c (Pipeline.arrRef spec0 1)) (hafter : ∀ t, dat.after 1 t = iblk m c 1 t) (t : Fin cfg0.N) (d) :
    dat.before 1 t d = iblk m c 1 t := by
  have hkeep : ∀ t, (cfg0.win 1).cut (cfg0.grid.coords t) (dat.after 1 t) = dat.blockOf 1 t := fun t => by
    rw [hafter]; unfold Dat.blockOf iblk; rw [hA]
  rw [dat.before_in_eq_fetched 1 rfl (fun _ => rfl) (fun _ _ _ => rfl) hkeep t d]
  unfold Dat.fetched Dat.blockOf iblk; rw [hA]; rfl
theorem before_in2 {c : Dev nD} (dat : Dat τ (Elt F) Unit ℕ (UR sig nD τ) ℕ cfg0 c)
    (hA : dat.A 2 = V m c (Pipeline.arrRef spec0 2)) (hafter : ∀ t, dat.after 2 t = iblk m c 2 t) (t : Fin cfg0.N) (d) :
    dat.before 2 t d = iblk m c 2 t := by
  have hkeep : ∀ t, (cfg0.win 2).cut (cfg0.grid.coords t) (dat.after 2 t) = dat.blockOf 2 t := fun t => by
    rw [hafter]; unfold Dat.blockOf iblk; rw [hA]
  rw [dat.before_in_eq_fetched 2 rfl (fun _ => rfl) (fun _ _ _ => rfl) hkeep t d]
  unfold Dat.fetched Dat.blockOf iblk; rw [hA]; rfl

/-! ## What the body leaves in the output block -/

abbrev rX : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S128 := Rect.unit (s := S128) ![0] S128.size inb_S128_S128_0

/-- The output block after the body, from the three input blocks: its one store, over the whole block, of the body's
    arithmetic of the three loads. -/
def blockOut (x0 : Vec F S5000x128 .f32) (wt : Vec F S128x128 .f32) (bv : Vec F S128 .f32) : Vec F S5000x128 .f32 :=
  View.canon [⟨rX, k0_pay1 (View.ld x0 rX) (View.ld wt rW) (View.ld bv rB)⟩]

/-- The one store covers the block. -/
theorem blockOut_cover (p0 : Vec F S5000x128 .f32) (y : S5000x128.Idx) :
    ∃ pc ∈ ([⟨rX, p0⟩] : List (View.Piece (Elt F) S5000x128 .f32)), y ∈ pc.1.set :=
  ⟨_, List.mem_singleton_self _, View.mem_set_unit_zero (by funext a; fin_cases a <;> rfl) inb_S5000x128_S5000x128_0_0 y⟩

/-! ## The body's triple -/

set_option maxHeartbeats 1000000 in
/-- The body on whole staging memrefs: the three inputs at contents `x0`, `wt`, `bv` and the output at anything; it
    returns holding the inputs as they were and the output at `blockOut x0 wt bv`. -/
theorem sound_kernel (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S5000x128 .f32) (harg4 : arg4.IsWhole)
    (x0 : Vec F S5000x128 .f32) (wt : Vec F S128x128 .f32) (bv : Vec F S128 .f32) (K : PUnit → sProp 𝕄) :
    iprop(owns (c : Thread nD τ) arg1 fullShare x0 ∗ owns (c : Thread nD τ) arg2 fullShare wt ∗ owns (c : Thread nD τ) arg3 fullShare bv
        ∗ (∃ d, owns (c : Thread nD τ) arg4 fullShare d)
        ∗ (iprop(owns (c : Thread nD τ) arg1 fullShare x0 ∗ owns (c : Thread nD τ) arg2 fullShare wt ∗ owns (c : Thread nD τ) arg3 fullShare bv
            ∗ owns (c : Thread nD τ) arg4 fullShare (blockOut x0 wt bv)) -∗ K ⟨⟩))
      ⊢ wp frame (wpE (defs₀ (F := F)) Variants.none c none) E (cc0__lorentz_linear_kernel i arg1 harg1 arg2 harg2 arg3 harg3 arg4 harg4) K := by
  simp only [cc0__lorentz_linear_kernel_eq_skeleton]; unfold cc0__lorentz_linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (blockOut_cover _)

/-! ## The pipeline's proof data -/

/-- On core `c`: the arrays as the region finds them; after the body at point `t` each input buffer at its block and the
    output buffer at `blockOut` of the three input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = blockOut (iblk m c 0 t) (iblk m c 1 t) (iblk m c 2 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every fair execution of @main terminates without a fault; every array of the pipeline ends at what the write-backs
    leave, every other unscoped buffer at what the later lines compute. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The four arguments end as launched: `x` and the bias are input arrays of the pipeline, never written; the edge list
    and the weight are outside it and no line writes them. -/
theorem args_kept (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine ⟨?_, ?_, ?_, ?_⟩
  · exact (((h c).1 0).trans ((dats m 0 c).arrAt_in 0 rfl _)).trans ((A_eq m c 0).trans (V_of_ne_v0 m c main_arg0 (by decide)))
  · exact ((h c).2 main_arg1 (Pipeline.mem_restRefs_of main_arg1 (by decide) (by decide))).trans
      (kept_of_not_written m (dats m) c main_arg1 (by decide) (by decide) (by decide))
  · exact ((h c).2 main_arg2 (Pipeline.mem_restRefs_of main_arg2 (by decide) (by decide))).trans
      (kept_of_not_written m (dats m) c main_arg2 (by decide) (by decide) (by decide))
  · exact (((h c).1 2).trans ((dats m 0 c).arrAt_in 2 rfl _)).trans ((A_eq m c 2).trans (V_of_ne_v0 m c main_arg3 (by decide)))

/-- The frame: @main runs to the end without a fault and its four arguments end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m r h c) (run_main m ρ)

end Cert.Kernel.Frm

end
-- ==== Proof.FrameIdeal.lean ====
/-
  The frame of `KernelIdeal`: @main is one host line (the transpose of the weight), one pipelined kernel over a grid of ten
  row blocks, and 76 host lines that only read what the kernel wrote and write buffers of their own.

  What is proved here, at any float instance `F`. (1) The kernel's body at a grid point: it is handed the point's block
  of `x` (5000 rows), the transposed weight and the bias in its three input staging buffers and anything in its output
  staging buffer; it loads the three, loads the output buffer (a value it never uses) and stores ONE value over the whole
  output block, the body's arithmetic `k0_pay1` of the three loads; it leaves the inputs as they were. (2) The proof
  data of the pipeline: the arrays as the region finds them after the transpose, each input buffer at its block after
  the body, the output buffer at `blockOut` of the three input blocks. An input fetched only at the first point (the
  weight, the bias: their block index never moves) still holds its block at every later point. (3) The 76 later lines:
  each touches TensorCore buffers only, allocates nothing, and writes only its own result buffer, which is none of the
  four arrays of the pipeline and none of the four arguments; the list `tailWritten` names those 76 buffers, and every
  fact of this kind is membership in that list. (4) The run: every fair execution of @main terminates without a fault;
  the output array ends at what the write-backs of the ten points leave (`Dat.arrAt`), every buffer outside the pipeline
  at what the later lines compute from that (`afterTail₀`); the four arguments end as they were launched.
-/
import proofs.«417361_j56788057588127_3_alg».proof.Proof.Gen.KernelIdeal.Launch
import proofs.«417361_j56788057588127_3_alg».proof.Proof.Gen.KernelIdeal.Skeleton
import proofs.«417361_j56788057588127_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the kernel, stretch by stretch: the two rows of the edge list, the two row gathers, the inner
    product, the clip, the exponential. -/
abbrev tailOps : List (List (HloOp τ sig (Elt F))) :=
  [hostOps1, hostOps1_1, hostOps1_2, hostOps1_3, hostOps1_4, hostOps1_5]

/-- The device's buffers when the kernel starts: the launch contents after the transpose of the weight. -/
abbrev V0 (c : Dev nD) : Valuation τ sig (Elt F) := StableHlo.after (List.flatten [hostOps0]) (fun b => m (c, b))
/-- The same, read at a TensorCore buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := rfl

/-- @main is the transpose, then the kernel's region, then the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-! ## The later lines write buffers of their own -/

/-- The 76 buffers the later lines write, one a line, in program order. -/
abbrev tailWritten : List (Ref sig .tc) :=
  [main_v2, main_v3, main_v4, main_v5, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v6, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7, main_v8, main_cst, main_v9, main_v10, main_v11, main_cst_0, main_v12, main_v13, main_v14, main_v15, main_v16, main_v17, main_cst_1, main_v18, main_v19, main_v20, main_cst_2, main_cst_3, main_call2_v0, main_call2_v1, main_call2_v2, main_call2_v3, main_call2_v4, main_v21, main_v22, main_v23]

/-- A line whose one written buffer is on a list writes within the list. -/
theorem single_sub {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

theorem writes1 : (hostOps1 : List (HloOp τ sig (Elt F))).Forall fun op => op.writes ⊆ (tailWritten.map (Proc.devRef (τ := τ) .tc)).toFinset :=
  ⟨single_sub (by decide), single_sub (by decide), single_sub (by decide), single_sub (by decide)⟩
theorem writes1_1 : (hostOps1_1 : List (HloOp τ sig (Elt F))).Forall fun op => op.writes ⊆ (tailWritten.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem writes1_2 : (hostOps1_2 : List (HloOp τ sig (Elt F))).Forall fun op => op.writes ⊆ (tailWritten.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem writes1_3 : (hostOps1_3 : List (HloOp τ sig (Elt F))).Forall fun op => op.writes ⊆ (tailWritten.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem writes1_4 : (hostOps1_4 : List (HloOp τ sig (Elt F))).Forall fun op => op.writes ⊆ (tailWritten.map (Proc.devRef (τ := τ) .tc)).toFinset :=
  ⟨single_sub (by decide), single_sub (by decide), single_sub (by decide), single_sub (by decide), single_sub (by decide), single_sub (by decide)⟩
theorem writes1_5 : (hostOps1_5 : List (HloOp τ sig (Elt F))).Forall fun op => op.writes ⊆ (tailWritten.map (Proc.devRef (τ := τ) .tc)).toFinset :=
  ⟨single_sub (by decide), single_sub (by decide)⟩

theorem fresh1 : (hostOps1 : List (HloOp τ sig (Elt F))).Forall fun op => op.fresh = ∅ := ⟨rfl, rfl, rfl, rfl⟩
theorem fresh1_1 : (hostOps1_1 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl⟩
theorem fresh1_2 : (hostOps1_2 : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl⟩
theorem fresh1_3 : (hostOps1_3 : List (HloOp τ sig (Elt F))).Forall fun op => op.fresh = ∅ := ⟨rfl, rfl, rfl, rfl, rfl, rfl, rfl, rfl, rfl, rfl, rfl, rfl, rfl, rfl, rfl, rfl, rfl, rfl⟩
theorem fresh1_4 : (hostOps1_4 : List (HloOp τ sig (Elt F))).Forall fun op => op.fresh = ∅ := ⟨rfl, rfl, rfl, rfl, rfl, rfl⟩
theorem fresh1_5 : (hostOps1_5 : List (HloOp τ sig (Elt F))).Forall fun op => op.fresh = ∅ := ⟨rfl, rfl⟩

/-- The three facts about every later line at once: TensorCore buffers only, nothing allocated, its write on the list. -/
theorem tail_facts : ∀ ops ∈ (tailOps (F := F)), ∀ op ∈ ops,
    op.bufs ⊆ StableHlo.tcRefs τ sig ∧ op.fresh = ∅ ∧ op.writes ⊆ (tailWritten.map (Proc.devRef (τ := τ) .tc)).toFinset := by
  intro ops hops op hop
  simp only [List.mem_cons, List.mem_nil_iff, or_false] at hops
  rcases hops with rfl | rfl | rfl | rfl | rfl | rfl
  · exact ⟨List.forall_iff_forall_mem.mp hostOps1_sub op hop, List.forall_iff_forall_mem.mp fresh1 op hop, List.forall_iff_forall_mem.mp writes1 op hop⟩
  · exact ⟨List.forall_iff_forall_mem.mp hostOps1_1_sub op hop, List.forall_iff_forall_mem.mp fresh1_1 op hop, List.forall_iff_forall_mem.mp writes1_1 op hop⟩
  · exact ⟨List.forall_iff_forall_mem.mp hostOps1_2_sub op hop, List.forall_iff_forall_mem.mp fresh1_2 op hop, List.forall_iff_forall_mem.mp writes1_2 op hop⟩
  · exact ⟨List.forall_iff_forall_mem.mp hostOps1_3_sub op hop, List.forall_iff_forall_mem.mp fresh1_3 op hop, List.forall_iff_forall_mem.mp writes1_3 op hop⟩
  · exact ⟨List.forall_iff_forall_mem.mp hostOps1_4_sub op hop, List.forall_iff_forall_mem.mp fresh1_4 op hop, List.forall_iff_forall_mem.mp writes1_4 op hop⟩
  · exact ⟨List.forall_iff_forall_mem.mp hostOps1_5_sub op hop, List.forall_iff_forall_mem.mp fresh1_5 op hop, List.forall_iff_forall_mem.mp writes1_5 op hop⟩

/-- A buffer off the list is written by no later line. -/
theorem tail_not_writes (b : Ref sig .tc) (hb : b ∉ tailWritten) :
    ∀ ops ∈ (tailOps (F := F)), ∀ op ∈ ops, Proc.devRef (τ := τ) .tc b ∉ op.writes := by
  intro ops hops op hop hw
  obtain ⟨y, hy, he⟩ := List.mem_map.mp (List.mem_toFinset.mp ((tail_facts ops hops op hop).2.2 hw))
  exact hb (Proc.devRef_injective _ he ▸ hy)

theorem tail_sub : ∀ ops ∈ (tailOps (F := F)), ∀ op ∈ ops, op.bufs ⊆ Pipeline.tailRefs sig Pipeline.Prefetch.none spec0 := by
  rw [Pipeline.tailRefs_none spec0 launch0.win.arr_unscoped]
  intro ops hops op hop
  exact Pipeline.sub_ucRefs op (tail_facts ops hops op hop).1

theorem tail_fresh : ∀ ops ∈ (tailOps (F := F)), ∀ op ∈ ops, op.fresh = ∅ :=
  fun ops hops op hop => (tail_facts ops hops op hop).2.1

/-- No later line writes an array of the pipeline. -/
theorem tail_keeps : ∀ ops ∈ (tailOps (F := F)), ∀ op ∈ ops, ∀ w, Proc.devRef .tc (Pipeline.arrRef spec0 w) ∉ op.writes :=
  fun ops hops op hop w => tail_not_writes (Pipeline.arrRef spec0 w) ((by decide : ∀ w, Pipeline.arrRef spec0 w ∉ tailWritten) w) ops hops op hop

/-- A buffer that neither the transpose nor a later line writes, and that is no array of the pipeline, ends as launched. -/
theorem kept_of_not_written (dats : (p : Fin 1) → (c : Dev nD) → Dat τ (Elt F) Unit ℕ (UR sig nD τ) ℕ (cfgs p) c) (c : Dev nD)
    (b : Ref sig .tc) (hb : b ∉ tailWritten) (h0 : b ≠ main_v0) (ha : ∀ w, Pipeline.arrRef spec0 w ≠ b) :
    Pipeline.afterTail₀ cfgs dats 0 (V0 m) tailOps c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      exact tail_not_writes b hb ops hops op hop'),
    Pipeline.withArrays_of_ne _ c (V0 m c) _ b ha]
  exact StableHlo.after_of_forall_not_mem (b := Proc.devRef .tc b) _ _ (fun op hop => by
    simp only [hostOps0, List.flatten_cons, List.flatten_nil, List.append_nil, List.mem_cons, List.mem_nil_iff, or_false] at hop
    subst hop
    simp only [StableHlo.unary_writes, Finset.mem_singleton]
    exact StableHlo.devRef_ne_of_ne h0)

/-- The arguments as the region finds them: the transpose writes only its own result. -/
theorem V_of_ne_v0 (c : Dev nD) (b : Ref sig .tc) (h0 : b ≠ main_v0) : V m c b = m ((c : Thread nD τ).loc b) :=
  StableHlo.after_of_forall_not_mem (b := Proc.devRef .tc b) _ _ (fun op hop => by
    simp only [hostOps0, List.flatten_cons, List.flatten_nil, List.append_nil, List.mem_cons, List.mem_nil_iff, or_false] at hop
    subst hop
    simp only [StableHlo.unary_writes, Finset.mem_singleton]
    exact StableHlo.devRef_ne_of_ne h0)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not fetched the
    block index has not moved since the point that fetched it, and the body left the block in place. Window by window
    (the block's index type is the window's own). -/
theorem before_in0 {c : Dev nD} (dat : Dat τ (Elt F) Unit ℕ (UR sig nD τ) ℕ cfg0 c)
    (hA : dat.A 0 = V m c (Pipeline.arrRef spec0 0)) (hafter : ∀ t, dat.after 0 t = iblk m c 0 t) (t : Fin cfg0.N) (d) :
    dat.before 0 t d = iblk m c 0 t := by
  have hkeep : ∀ t, (cfg0.win 0).cut (cfg0.grid.coords t) (dat.after 0 t) = dat.blockOf 0 t := fun t => by
    rw [hafter]; unfold Dat.blockOf iblk; rw [hA]
  rw [dat.before_in_eq_fetched 0 rfl (fun _ => rfl) (fun _ _ _ => rfl) hkeep t d]
  unfold Dat.fetched Dat.blockOf iblk; rw [hA]; rfl
theorem before_in1 {c : Dev nD} (dat : Dat τ (Elt F) Unit ℕ (UR sig nD τ) ℕ cfg0 c)
    (hA : dat.A 1 = V m c (Pipeline.arrRef spec0 1)) (hafter : ∀ t, dat.after 1 t = iblk m c 1 t) (t : Fin cfg0.N) (d) :
    dat.before 1 t d = iblk m c 1 t := by
  have hkeep : ∀ t, (cfg0.win 1).cut (cfg0.grid.coords t) (dat.after 1 t) = dat.blockOf 1 t := fun t => by
    rw [hafter]; unfold Dat.blockOf iblk; rw [hA]
  rw [dat.before_in_eq_fetched 1 rfl (fun _ => rfl) (fun _ _ _ => rfl) hkeep t d]
  unfold Dat.fetched Dat.blockOf iblk; rw [hA]; rfl
theorem before_in2 {c : Dev nD} (dat : Dat τ (Elt F) Unit ℕ (UR sig nD τ) ℕ cfg0 c)
    (hA : dat.A 2 = V m c (Pipeline.arrRef spec0 2)) (hafter : ∀ t, dat.after 2 t = iblk m c 2 t) (t : Fin cfg0.N) (d) :
    dat.before 2 t d = iblk m c 2 t := by
  have hkeep : ∀ t, (cfg0.win 2).cut (cfg0.grid.coords t) (dat.after 2 t) = dat.blockOf 2 t := fun t => by
    rw [hafter]; unfold Dat.blockOf iblk; rw [hA]
  rw [dat.before_in_eq_fetched 2 rfl (fun _ => rfl) (fun _ _ _ => rfl) hkeep t d]
  unfold Dat.fetched Dat.blockOf iblk; rw [hA]; rfl

/-! ## What the body leaves in the output block -/

abbrev rX : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S128 := Rect.unit (s := S128) ![0] S128.size inb_S128_S128_0

/-- The output block after the body, from the three input blocks: its one store, over the whole block, of the body's
    arithmetic of the three loads. -/
def blockOut (x0 : Vec F S5000x128 .f32) (wt : Vec F S128x128 .f32) (bv : Vec F S128 .f32) : Vec F S5000x128 .f32 :=
  View.canon [⟨rX, k0_pay1 (View.ld x0 rX) (View.ld wt rW) (View.ld bv rB)⟩]

/-- The one store covers the block. -/
theorem blockOut_cover (p0 : Vec F S5000x128 .f32) (y : S5000x128.Idx) :
    ∃ pc ∈ ([⟨rX, p0⟩] : List (View.Piece (Elt F) S5000x128 .f32)), y ∈ pc.1.set :=
  ⟨_, List.mem_singleton_self _, View.mem_set_unit_zero (by funext a; fin_cases a <;> rfl) inb_S5000x128_S5000x128_0_0 y⟩

/-! ## The body's triple -/

set_option maxHeartbeats 1000000 in
/-- The body on whole staging memrefs: the three inputs at contents `x0`, `wt`, `bv` and the output at anything; it
    returns holding the inputs as they were and the output at `blockOut x0 wt bv`. -/
theorem sound_kernel (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S5000x128 .f32) (harg4 : arg4.IsWhole)
    (x0 : Vec F S5000x128 .f32) (wt : Vec F S128x128 .f32) (bv : Vec F S128 .f32) (K : PUnit → sProp 𝕄) :
    iprop(owns (c : Thread nD τ) arg1 fullShare x0 ∗ owns (c : Thread nD τ) arg2 fullShare wt ∗ owns (c : Thread nD τ) arg3 fullShare bv
        ∗ (∃ d, owns (c : Thread nD τ) arg4 fullShare d)
        ∗ (iprop(owns (c : Thread nD τ) arg1 fullShare x0 ∗ owns (c : Thread nD τ) arg2 fullShare wt ∗ owns (c : Thread nD τ) arg3 fullShare bv
            ∗ owns (c : Thread nD τ) arg4 fullShare (blockOut x0 wt bv)) -∗ K ⟨⟩))
      ⊢ wp frame (wpE (defs₀ (F := F)) Variants.none c none) E (cc0__lorentz_linear_kernel i arg1 harg1 arg2 harg2 arg3 harg3 arg4 harg4) K := by
  simp only [cc0__lorentz_linear_kernel_eq_skeleton]; unfold cc0__lorentz_linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (blockOut_cover _)

/-! ## The pipeline's proof data -/

/-- On core `c`: the arrays as the region finds them; after the body at point `t` each input buffer at its block and the
    output buffer at `blockOut` of the three input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = blockOut (iblk m c 0 t) (iblk m c 1 t) (iblk m c 2 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every fair execution of @main terminates without a fault; every array of the pipeline ends at what the write-backs
    leave, every other unscoped buffer at what the later lines compute. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The four arguments end as launched: `x` and the bias are input arrays of the pipeline, never written; the edge list
    and the weight are outside it and no line writes them. -/
theorem args_kept (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine ⟨?_, ?_, ?_, ?_⟩
  · exact (((h c).1 0).trans ((dats m 0 c).arrAt_in 0 rfl _)).trans ((A_eq m c 0).trans (V_of_ne_v0 m c main_arg0 (by decide)))
  · exact ((h c).2 main_arg1 (Pipeline.mem_restRefs_of main_arg1 (by decide) (by decide))).trans
      (kept_of_not_written m (dats m) c main_arg1 (by decide) (by decide) (by decide))
  · exact ((h c).2 main_arg2 (Pipeline.mem_restRefs_of main_arg2 (by decide) (by decide))).trans
      (kept_of_not_written m (dats m) c main_arg2 (by decide) (by decide) (by decide))
  · exact (((h c).1 2).trans ((dats m 0 c).arrAt_in 2 rfl _)).trans ((A_eq m c 2).trans (V_of_ne_v0 m c main_arg3 (by decide)))

/-- The frame: @main runs to the end without a fault and its four arguments end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m r h c) (run_main m ρ)

end Cert.KernelIdeal.Frm

end
-- ==== Proof.Spec.lean ====
/-
  The Lorentz linear layer followed by the Lorentzian edge score, as functions on the extended reals.

  A node row `x[n, ·]` of 128 features is mapped to `lin n j = Σ_k x[n, k] · W[j, k] + b[j]` (128 space
  coordinates) and lifted to the hyperboloid by the time coordinate `time n = √(Σ_j (lin n j)² + 1)`. An edge
  `(s, d)` is scored by the Lorentzian inner product of the two points over the time coordinate and the FIRST 127
  space coordinates, `−time s · time d + Σ_{j<127} lin s j · lin d j`, then `a ↦ exp (−clip (−(1 + a)))` with the
  clip to `[lo, 1]`.

  Two spellings of that inner product meet here. One keeps, per node, the 128 numbers `(time, lin 0, …, lin 126)` in
  one row `point n`, takes the plain dot product of two such rows and subtracts twice the product of the time
  coordinates (`innerFull`); the other negates the time product and adds the dot product of the 127 space
  coordinates (`innerSplit`). For rows of REAL numbers they are one number: `t·t' + S − 2·t·t' = −t·t' + S`, which
  cancels `t·t'` and therefore needs it finite; at an infinite entry the two differ.

  The float literals stay the words the programs print (`one`, `two`, `lo`); only `two` and zero are ever evaluated.
-/
import Idealize.ShloMosaic.PureOps.Ideal
import Idealize.ShloMosaic.PureOps.Ideal.Laws
import Idealize.ShloMosaic.Lib.ValueIdx

noncomputable section

namespace Cert.Lorentz

open Idealize.ShloMosaic Idealize.ShloMosaic.ValueIdx

abbrev Sx : Shape := ⟨2, ![50000, 128]⟩
abbrev Sw : Shape := ⟨2, ![128, 128]⟩
abbrev Sb : Shape := ⟨1, ![128]⟩
abbrev Se : Shape := ⟨2, ![2, 1600000]⟩
abbrev Sr : Shape := ⟨1, ![1600000]⟩

/-- The words `1.0`, `2.0` and `1e-10` (rounded to f32) as the extended reals they denote. -/
abbrev one : EReal := Ideal.ofBits .f32 0x3F800000#32
abbrev two : EReal := Ideal.ofBits .f32 0x40000000#32
abbrev lo : EReal := Ideal.ofBits .f32 0x2EDBE6FF#32

/-- Space coordinate `j` of node `n`: the row of `x` against row `j` of `W`, plus the bias. -/
def lin (x : FVec Ideal Sx .f32) (W : FVec Ideal Sw .f32) (b : FVec Ideal Sb .f32) (n : Fin 50000) (j : Fin 128) : EReal :=
  (∑ k : Fin 128, x (ix2 n k) * W (ix2 j k)) + b (ix1 j)

/-- The time coordinate of node `n`: the root of the squared norm of its space coordinates plus one. -/
def time (x : FVec Ideal Sx .f32) (W : FVec Ideal Sw .f32) (b : FVec Ideal Sb .f32) (n : Fin 50000) : EReal :=
  Ideal.sqrt ((∑ j : Fin 128, lin x W b n j * lin x W b n j) + one)

/-- The 128 numbers kept per node: the time coordinate first, then space coordinates 0 to 126. -/
def point (x : FVec Ideal Sx .f32) (W : FVec Ideal Sw .f32) (b : FVec Ideal Sb .f32) (n : Fin 50000) (j : Fin 128) : EReal :=
  if j.val = 0 then time x W b n else lin x W b n ⟨j.val - 1, by omega⟩

/-- The dot product of two kept rows, less twice the product of their first entries. -/
def innerFull (u v : Fin 128 → EReal) : EReal := (∑ j : Fin 128, u j * v j) - two * u 0 * v 0

/-- The negated product of the time coordinates plus the dot product of 127 space coordinates. -/
def innerSplit (tu tv : EReal) (su sv : Fin 127 → EReal) : EReal := -tu * tv + ∑ j : Fin 127, su j * sv j

/-- From the inner product to the score: `exp (−clip (−(1 + a), lo, 1))`. -/
def score (a : EReal) : EReal := Ideal.exp (-(min one (max lo (-(one + a)))))

/-- The edge score of the edge from node `s` to node `d`. -/
def edgeScore (x : FVec Ideal Sx .f32) (W : FVec Ideal Sw .f32) (b : FVec Ideal Sb .f32) (s d : Fin 50000) : EReal :=
  score (innerSplit (time x W b s) (time x W b d) (fun j => lin x W b s (Fin.castSucc j)) (fun j => lin x W b d (Fin.castSucc j)))

/-! ## The edge list -/

/-- Every entry of the edge list, read as an unsigned word, names a node. (Below 2³¹ the signed and the unsigned
    reading of a word are one number, so this is also `0 ≤ entry < 50000` of the signed reading.) -/
def InRange (E : IVec Se 32) : Prop := ∀ (r : Fin 2) (e : Fin 1600000), (E (ix2 r e)).toNat < 50000

/-- The node that end `r` (0 the source, 1 the destination) of edge `e` names. -/
def node (E : IVec Se 32) (hE : InRange E) (r : Fin 2) (e : Fin 1600000) : Fin 50000 := ⟨(E (ix2 r e)).toNat, hE r e⟩

/-! ## The words -/

theorem two_eq : two = ((2 : ℝ) : EReal) := by
  show Ideal.ofBits .f32 0x40000000#32 = _
  simp [Ideal.ofBits, Ideal.ieee, -EReal.coe_mul]; norm_num

theorem one_eq : one = ((1 : ℝ) : EReal) := by
  show Ideal.ofBits .f32 0x3F800000#32 = _
  simp [Ideal.ofBits, Ideal.ieee, -EReal.coe_mul]; norm_num

/-! ## The two spellings agree on real rows -/

/-- A finite sum of reals, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `t·t' + S − 2·t·t' = −t·t' + S` for real rows: the first entry of the dot product is split off and cancelled. -/
theorem innerFull_eq_innerSplit (u v : Fin 128 → ℝ) :
    innerFull (fun j => (u j : EReal)) (fun j => (v j : EReal))
      = innerSplit (u 0 : EReal) (v 0 : EReal) (fun j => (u j.succ : EReal)) (fun j => (v j.succ : EReal)) := by
  unfold innerFull innerSplit
  rw [two_eq]
  simp only [← EReal.coe_mul, ← coe_sum, ← EReal.coe_neg, ← EReal.coe_sub, ← EReal.coe_add]
  refine congrArg _ ?_
  rw [Fin.sum_univ_succ]
  ring

end Cert.Lorentz

end
-- ==== Proof.BlockValue.lean ====
/-
  One block of the Lorentz linear layer, read entry by entry.

  From a block `xb` of 5000 rows of `x`, the transposed weight `wt` and the bias `bv`, the kernel's body forms
  `rowLin p c = Σ_k xb[p, k] · wt[k, c] + bv[c]` (row `p` against COLUMN `c`, since the weight arrives transposed), then
  per row the number `√(Σ_c (rowLin p c)² + 1)`, and stores the 128 numbers `(√…, rowLin p 0, …, rowLin p 126)` as row `p`:
  the root in column 0, and column `j ≥ 1` holding `rowLin p (j − 1)`. At the ideal values a format change is the
  identity, the product into the zero block is the plain sum over the contracted axis, and the lane sum is the sum
  over the 128 columns; the layout operations (a cast to the same shape, a vector read as one row and broadcast over
  the rows, a vector read as one column, the cut of the first 127 columns, the joining of one column with 127) each
  read one entry of their operand.
-/
import proofs.«417361_j56788057588127_3_alg».proof.Proof.Gen.KernelIdeal.Skeleton
import proofs.«417361_j56788057588127_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Lorentz.Block

open Idealize.ShloMosaic Idealize.ShloMosaic.ValueIdx Cert.Lorentz Cert.KernelIdeal

/-- Row `p` of the block of `x` against column `c` of the block of the transposed weight, plus the bias. -/
def rowLin (xb : Vec Ideal S5000x128 .f32) (wt : Vec Ideal S128x128 .f32) (bv : Vec Ideal S128 .f32) (p : Fin 5000) (c : Fin 128) : EReal :=
  (∑ k : Fin 128, xb (ix2 p k) * wt (ix2 k c)) + bv (ix1 c)

/-! ## The product's operand indices -/

/-- The left operand is read at the result's row and the contracted coordinate, the right operand at the contracted
    coordinate and the result's column: one equation per operand axis. -/
theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero block, read at `(p, c)`: row `p` of the left operand against column `c` of the right. -/
theorem matmul_at (xa : FVec Ideal S5000x128 .bf16) (wa : FVec Ideal S128x128 .bf16) (p : Fin 5000) (c : Fin 128) :
    matmul dot_S5000x128_S128x128_S5000x128_1_0_0_1_n_n none xa wa (constant (F := Ideal) S5000x128 .f32 0x00000000#32) (ix2 p c)
      = ∑ k : Fin 128, xa (ix2 p k) * wa (ix2 k c) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p c) ((contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p c) ((contrEquiv1 dot_S5000x128_S128x128_S5000x128_1_0_0_1_n_n 128 rfl rfl).symm k) = ix2 k c := funext fun a => Fin.ext (by
    match a with
    | ⟨0, _⟩ => exact (rhs_dot_0 _ _).trans hk
    | ⟨1, _⟩ => exact rhs_dot_1 _ _)
  rw [el, er]

/-- The sum-plus-bias block at `(p, c)`. -/
theorem lin_at (xb : Vec Ideal S5000x128 .f32) (wt : Vec Ideal S128x128 .f32) (bv : Vec Ideal S128 .f32)
    (hb : FTy.bits .bf16 < FTy.bits .f32) (hs : S128x128.ShapeCasts S128x128) (hc : S128.ShapeCasts S1x128)
    (hbr : S1x128.Broadcasts S5000x128) (p : Fin 5000) (c : Fin 128) :
    addf (matmul dot_S5000x128_S128x128_S5000x128_1_0_0_1_n_n none (truncf .bf16 xb hb) (truncf .bf16 (shapeCast S128x128 wt hs) hb)
        (constant (F := Ideal) S5000x128 .f32 0x00000000#32))
      (broadcastTo S5000x128 (shapeCast S1x128 bv hc) hbr) (ix2 p c) = rowLin xb wt bv p c := by
  rw [addf_apply, matmul_at, broadcastTo_1b_ab_apply _ hbr p c, shapeCast_a_1a_apply, shapeCast_self]
  rfl

/-- A lane sum of a block, read at row `p`. -/
theorem rowSum_at (src : FVec Ideal S5000x128 .f32) (h : S5000x128.Reduces [1] S5000) (hφ : FKind.Formats .f32)
    (hacc : (0x00000000#32 : BitVec 32) = 0x00000000#32) (p : Fin 5000) :
    multiReduction (F := Ideal) .add [1] S5000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-- A vector cast to one column reads, at `(p, u)`, the vector at `p`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- THE STORED BLOCK AT `(p, j)`: column 0 is the root of the row's squared norm plus one, column `j ≥ 1` is the
    sum-plus-bias entry of column `j − 1`. -/
theorem payload_apply (xb : Vec Ideal S5000x128 .f32) (wt : Vec Ideal S128x128 .f32) (bv : Vec Ideal S128 .f32) (p : Fin 5000) (j : Fin 128) :
    Cert.KernelIdeal.Gen.k0_pay1 (F := Ideal) xb wt bv (ix2 p j)
      = if j.val = 0 then Ideal.sqrt ((∑ c : Fin 128, rowLin xb wt bv p c * rowLin xb wt bv p c) + one) else rowLin xb wt bv p ⟨j.val - 1, by omega⟩ := by
  unfold Gen.k0_pay1
  dsimp only
  by_cases hj : j.val = 0
  · rw [if_pos hj]
    refine (concatenate_pair_apply_left (t := S5000x128) (s₁ := S5000x1) (s₂ := S5000x127) (1 : Fin S5000x128.rank) _ _ _ (ix2 p j) rfl (ix2 p (0 : Fin 1)) ?_).trans ?_
    · intro b
      match b with
      | ⟨0, _⟩ => rfl
      | ⟨1, _⟩ => exact hj.symm
    · show Ideal.sqrt (shapeCast S5000x1 _ _ (ix2 p (0 : Fin 1)) + one) = _
      rw [shapeCast_a_a1_apply]
      refine congrArg (fun t => Ideal.sqrt (t + one)) ?_
      refine (rowSum_at _ _ _ _ p).trans ?_
      refine Finset.sum_congr rfl fun c _ => ?_
      rw [mulf_apply, lin_at]
  · rw [if_neg hj]
    have hj1 : j.val - 1 < 127 := by omega
    refine (concatenate_pair_apply_right (t := S5000x128) (s₁ := S5000x1) (s₂ := S5000x127) (1 : Fin S5000x128.rank) _ _ _ (ix2 p j) rfl rfl (ix2 p (⟨j.val - 1, hj1⟩ : Fin 127)) ?_ ?_).trans ?_
    · intro b hb
      match b, hb with
      | ⟨0, _⟩, _ => rfl
      | ⟨1, _⟩, hb => exact absurd rfl hb
    · show (j.val - 1) + 1 = j.val
      omega
    · refine (slice2_axis1_apply (n0 := 5000) (n1 := 128) (m := 127) 0 _ _ p ⟨j.val - 1, hj1⟩ ⟨j.val - 1, by omega⟩ (Nat.zero_add _).symm).trans ?_
      exact lin_at xb wt bv _ _ _ _ p ⟨j.val - 1, by omega⟩

end Cert.Lorentz.Block

end
-- ==== Proof.TableValue.lean ====
/-
  The table the kernel leaves: row `n` of its output array is the kept row `point x W b n` of node `n` — the time
  coordinate in column 0, space coordinates 0 to 126 in columns 1 to 127 —, as a function of the launch contents of
  `x`, `W` and `b`.

  The grid has ten points; point `t` is handed rows `5000·t … 5000·t + 4999` of `x` (its block index is `(t, 0)`), the
  whole transposed weight and the whole bias (block index `0` at every point), and writes back rows
  `5000·t … 5000·t + 4999` of the output. So a block's coordinate is always `index × size + 1 × the coordinate inside
  the block`, and the three reads below are that arithmetic. The weight the region finds is the host's transpose of
  `W`: entry `(k, j)` of it is `W[j, k]`, which turns the body's contraction over the FIRST axis of its weight block
  into the specification's `Σ_k x[n, k] · W[j, k]`. Row `r` of the output lies in the block of point `r / 5000`, so the ten
  blocks cover the array and the array ends as the table.
-/
import proofs.«417361_j56788057588127_3_alg».proof.Proof.FrameIdeal
import proofs.«417361_j56788057588127_3_alg».proof.Proof.BlockValue
import proofs.«417361_j56788057588127_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Table

open Idealize.ShloMosaic Idealize.ShloMosaic.TcCoe Idealize.ShloMosaic.ValueIdx Idealize.ShloMosaic.StableHlo Idealize.SL.Sem
open Idealize.ShloMosaic.Pipeline (Dat)
open Cert.KernelIdeal Cert.KernelIdeal.Gen Cert.KernelIdeal.Frm Cert.Lorentz

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The launch contents of the three float arguments on core `c`. -/
abbrev xArr (c : Dev nD) : S50000x128.Idx → EReal := m ((c : Thread nD τ).loc main_arg0)
abbrev wArr (c : Dev nD) : S128x128.Idx → EReal := m ((c : Thread nD τ).loc main_arg2)
abbrev bArr (c : Dev nD) : S128.Idx → EReal := m ((c : Thread nD τ).loc main_arg3)

/-- The table: entry `(n, j)` is entry `j` of node `n`'s kept row. -/
def table (c : Dev nD) : S50000x128.Idx → EReal := fun i =>
  point (xArr m c) (wArr m c) (bArr m c) ⟨(i 0).val, idx2_lt0 i⟩ ⟨(i 1).val, idx2_lt1 i⟩

/-- The block indices, decided over the ten points: the row blocks of `x` and of the output move with the point, the
    weight and the bias stay at block 0. -/
theorem index_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0 ∧ win0_2.index t (0 : Fin 1) = 0 :=
  (by decide +kernel : ∀ t : Fin grid0.N, _)

theorem point_lt (t : Fin cfg0.N) : t.val < 10 := Nat.lt_of_lt_of_eq t.isLt N_0

/-- The weight the region finds is the transpose of the launched `W`. -/
theorem weight_entry (c : Dev nD) :
    (V m c main_v0 : S128x128.Idx → EReal) = transpose S128x128 [1, 0] (wArr m c) transposes_S128x128_S128x128_1_0 := by
  dsimp only [V, V0]
  simp only [hostOps0, List.flatten_cons, List.flatten_nil, List.append_nil]
  after_results

/-- Point `t`'s block of `x` at `(p, k)` is `x` at row `5000·t + p`. -/
theorem xblk_apply (c : Dev nD) (t : Fin cfg0.N) (p : Fin 5000) (k : Fin 128) :
    iblk m c 0 t (ix2 p k) = xArr m c (ix2 (⟨t.val * 5000 + p.val, by have := point_lt t; omega⟩ : Fin 50000) k) := by
  obtain ⟨-, -, e0, e1, -⟩ := index_facts t
  show V m c main_arg0 (((cfg0.win 0).blk t).view.emb (ix2 p k)) = _
  rw [V_of_ne_v0 m c main_arg0 (by decide)]
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weight block at `(k, j)` is `W[j, k]`, at every point. -/
theorem wblk_apply (c : Dev nD) (t : Fin cfg0.N) (k j : Fin 128) : iblk m c 1 t (ix2 k j) = wArr m c (ix2 j k) := by
  obtain ⟨-, -, -, -, e0, e1, -⟩ := index_facts t
  show V m c main_v0 (((cfg0.win 1).blk t).view.emb (ix2 k j)) = _
  have he : ((cfg0.win 1).blk t).view.emb (ix2 k j) = ix2 k j := funext fun a => Fin.ext (by
    match a with
    | ⟨0, _⟩ => show win0_1.index t (0 : Fin 2) * 128 + 1 * k.val = k.val; omega
    | ⟨1, _⟩ => show win0_1.index t (1 : Fin 2) * 128 + 1 * j.val = j.val; omega)
  rw [he, weight_entry]
  exact transpose_ix2_apply (wArr m c) transposes_S128x128_S128x128_1_0 k j

/-- The bias block at `j` is `b[j]`, at every point. -/
theorem bblk_apply (c : Dev nD) (t : Fin cfg0.N) (j : Fin 128) : iblk m c 2 t (ix1 j) = bArr m c (ix1 j) := by
  obtain ⟨-, -, -, -, -, -, e0⟩ := index_facts t
  show V m c main_arg3 (((cfg0.win 2).blk t).view.emb (ix1 j)) = _
  rw [V_of_ne_v0 m c main_arg3 (by decide)]
  refine congrArg _ (funext fun a => Fin.ext ?_)
  match a with
  | ⟨0, _⟩ => show win0_2.index t (0 : Fin 1) * 128 + 1 * j.val = j.val; omega

/-- Row `p` of point `t`'s blocks against the weight block is the specification's `lin` of node `5000·t + p`. -/
theorem rowLin_blk (c : Dev nD) (t : Fin cfg0.N) (p : Fin 5000) (j : Fin 128) :
    Cert.Lorentz.Block.rowLin (iblk m c 0 t) (iblk m c 1 t) (iblk m c 2 t) p j
      = lin (xArr m c) (wArr m c) (bArr m c) (⟨t.val * 5000 + p.val, by have := point_lt t; omega⟩ : Fin 50000) j := by
  unfold Cert.Lorentz.Block.rowLin lin
  rw [bblk_apply]
  refine congrArg (· + bArr m c (ix1 j)) (Finset.sum_congr rfl fun k _ => ?_)
  rw [xblk_apply, wblk_apply]

/-- What point `t` writes back is block `t` of the table. -/
theorem flushed_eq (c : Dev nD) (t : Fin cfg0.N) :
    (dats m 0 c).flushed 3 t = ((cfg0.win 3).blk t).view.read (Elt Ideal) (table m c) := by
  show (cfg0.win 3).cut (grid0.coords t) ((dats m 0 c).after 3 t) = _
  rw [after_3]
  unfold blockOut
  rw [View.canon_unit_zero zero2]
  simp only [View.ld_unit_zero (S := S5000x128) zero2, View.ld_unit_zero (S := S128x128) zero2, View.ld_unit_zero (S := S128) zero1]
  obtain ⟨e0, e1, -⟩ := index_facts t
  funext y
  obtain ⟨p, j, rfl⟩ : ∃ (p : Fin 5000) (j : Fin 128), y = ix2 p j := ⟨y 0, y 1, eq_ix2 y⟩
  show k0_pay1 (F := Ideal) (iblk m c 0 t) (iblk m c 1 t) (iblk m c 2 t) (ix2 p j) = table m c (((cfg0.win 3).blk t).view.emb (ix2 p j))
  refine (Cert.Lorentz.Block.payload_apply (iblk m c 0 t) (iblk m c 1 t) (iblk m c 2 t) p j).trans ?_
  have hrow : (⟨((((cfg0.win 3).blk t).view.emb (ix2 p j)) 0).val, idx2_lt0 _⟩ : Fin 50000)
      = ⟨t.val * 5000 + p.val, by have := point_lt t; omega⟩ := Fin.ext (by
    show win0_3.index t (0 : Fin 2) * 5000 + 1 * p.val = t.val * 5000 + p.val; omega)
  have hcol : (⟨((((cfg0.win 3).blk t).view.emb (ix2 p j)) 1).val, idx2_lt1 _⟩ : Fin 128) = j := Fin.ext (by
    show win0_3.index t (1 : Fin 2) * 128 + 1 * j.val = j.val; omega)
  unfold table point time
  rw [hrow, hcol]
  simp only [rowLin_blk]

/-- An entry of the output array is in point `t`'s block iff each coordinate is in the block's range. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Row `r` is written back by point `r / 5000`: the ten blocks cover the array. -/
theorem cover (i : S50000x128.Idx) : ∃ t : Fin cfg0.N, (cfg0.win 3).flush t = true ∧ i ∈ ((cfg0.win 3).blk t).view.set := by
  have hi0 : (i 0).val < 50000 := idx2_lt0 i
  have hi1 : (i 1).val < 128 := idx2_lt1 i
  let t : Fin cfg0.N := ⟨(i 0).val / 5000, by rw [show cfg0.N = 10 from N_0]; omega⟩
  obtain ⟨e0, e1, -⟩ := index_facts t
  have ht : t.val = (i 0).val / 5000 := rfl
  refine ⟨t, flush0_3 t, (mem_blk t i).mpr fun a => ?_⟩
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the ten write-backs is the table. -/
theorem final (c : Dev nD) : (dats m 0 c).arrAt 3 cfg0.N = table m c :=
  (dats m 0 c).arrAt_eq_of_cover 3 (table m c) (fun t _ => flushed_eq m c t) (cover)

end Cert.KernelIdeal.Table

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.TailValue.lean ====
/-
  The host lines after the kernel, read at an edge.

  Once the table `h` (one row of 128 numbers per node) is in its buffer, the program cuts the edge list into its row
  of sources and its row of destinations, takes the rows of `h` that each names, and scores edge `e = (s, d)` by
  `exp (−clip (−(1 + (Σ_j h[s, j] · h[d, j] − 2 · h[s, 0] · h[d, 0])), lo, 1))`.

  A take moves an index word that reads negative up by the table's height, builds the mask `0 ≤ word ≤ 49999` (both
  comparisons on the signed reading, joined by an `and` down a column of height one), gathers the rows at the words
  clamped into the table, and keeps a gathered row where the mask holds and a row of the junk word elsewhere. When a
  word is below the table's height it reads the same signed and unsigned, so it is not moved, the mask holds and the
  clamp does nothing: the take reads row `word` of `h`, and the junk word is never read. What follows is arithmetic
  entry by entry and one sum along a row, which on the extended reals is the finite sum started from the zero word.

  The lines are read stretch by stretch: what a stretch leaves in the buffers that later stretches read is stated as a
  function of ANY contents the stretch starts from, and the stretches are then composed. The float words `1.0`, `2.0`
  and `1e-10` stay words throughout; only the zero word is evaluated.
-/
import proofs.«417361_j56788057588127_3_alg».proof.Proof.Gen.KernelIdeal.Launch
import proofs.«417361_j56788057588127_3_alg».proof.Proof.Spec
import proofs.«417361_j56788057588127_3_alg».proof.Proof.LibScatterGather2
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.Lorentz.Tail

open Idealize.ShloMosaic Idealize.ShloMosaic.ValueIdx Idealize.ShloMosaic.StableHlo Cert.Lorentz Cert.KernelIdeal Cert.KernelIdeal.Gen

/-! ## The rows of the edge list -/

/-- Row 0 of the edge list (the sources) as a vector of index words. -/
def srcRow (E : IVec S2x1600000 32) : IVec S1600000 32 :=
  shapeCast S1600000 (extractStridedSlice S1x1600000 ![0, 0] E slices_S2x1600000_S1x1600000_0_0) shapeCasts_S1x1600000_S1600000
/-- Row 1 of the edge list (the destinations) as a vector of index words. -/
def dstRow (E : IVec S2x1600000 32) : IVec S1600000 32 :=
  shapeCast S1600000 (extractStridedSlice S1x1600000 ![1, 0] E slices_S2x1600000_S1x1600000_1_0) shapeCasts_S1x1600000_S1600000

theorem srcRow_apply (E : IVec S2x1600000 32) (e : Fin 1600000) : srcRow E (ix1 e) = E (ix2 (0 : Fin 2) e) := by
  unfold srcRow
  rw [shapeCast_apply _ shapeCasts_S1x1600000_S1600000 (ix1 e) (ix2 (0 : Fin 1) e)
    (by rewrite [Shape.rowMajor_val_two, Shape.rowMajor_val_one]; show 0 * 1600000 + e.val = e.val; omega)]
  exact extractStridedSlice_apply ![0, 0] E slices_S2x1600000_S1x1600000_0_0 (ix2 (0 : Fin 1) e) (ix2 (0 : Fin 2) e) (fun a => match a with
    | ⟨0, _⟩ => rfl
    | ⟨1, _⟩ => by show e.val = 0 + e.val; omega)

theorem dstRow_apply (E : IVec S2x1600000 32) (e : Fin 1600000) : dstRow E (ix1 e) = E (ix2 (1 : Fin 2) e) := by
  unfold dstRow
  rw [shapeCast_apply _ shapeCasts_S1x1600000_S1600000 (ix1 e) (ix2 (0 : Fin 1) e)
    (by rewrite [Shape.rowMajor_val_two, Shape.rowMajor_val_one]; show 0 * 1600000 + e.val = e.val; omega)]
  exact extractStridedSlice_apply ![1, 0] E slices_S2x1600000_S1x1600000_1_0 (ix2 (0 : Fin 1) e) (ix2 (1 : Fin 2) e) (fun a => match a with
    | ⟨0, _⟩ => rfl
    | ⟨1, _⟩ => by show e.val = 0 + e.val; omega)

/-! ## Taking rows of the table -/

/-- The index column a take builds from a vector of index words: a word that reads negative is moved up by the
    table's height, and the vector becomes a column. -/
def wrapCol (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 50000#32))) idx)

/-- Which entries of the column name a row of the table: `0 ≤ word ≤ 49999`, both read signed. -/
def rowMask (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- The rows of the table `h` the index words name, a row of the junk word where a word names none. -/
def take (h : FVec Ideal S50000x128 .f32) (idx : IVec S1600000 32) : FVec Ideal S1600000x128 .f32 :=
  select (broadcastInDim S1600000x128 ![0] bcast_S1600000_S1600000x128_0 (rowMask (wrapCol idx)))
    (Host.gather gather_S50000x128_S1600000x1_S1600000x128_1_0_n_n_0_1_1128 h (wrapCol idx))
    (broadcastInDim S1600000x128 ![] bcast_S_S1600000x128 (constant (F := Ideal) S_ .f32 0x7FC00000#32))

/-- A word below the table's height reads the same signed and unsigned, is not negative, and is not moved. -/
theorem wrapCol_apply (idx : IVec S1600000 32) (e : Fin 1600000) (he : (idx (ix1 e)).toNat < 50000) :
    wrapCol idx (ix2 e (0 : Fin 1)) = idx (ix1 e) := by
  unfold wrapCol
  rw [broadcastInDim_apply _ bcast_S1600000_S1600000x1_0 _ (ix2 e (0 : Fin 1)) (ix1 e) (fun a => match a with
    | ⟨0, _⟩ => by show e.val = if (1600000 : Nat) = 1 then 0 else e.val; rw [if_neg (by decide)])]
  rw [select_apply]
  have hc : cmpi .slt idx (broadcastInDim S1600000 ![] bcast_S_S1600000 (constantI S_ 32 0#32)) (ix1 e) ≠ 1#1 := by
    show IntOp.cmpi .slt (idx (ix1 e)) (broadcastInDim S1600000 ![] bcast_S_S1600000 (constantI S_ 32 0#32) (ix1 e)) ≠ 1#1
    rw [broadcastInDim_apply _ bcast_S_S1600000 (constantI S_ 32 0#32) (ix1 e) ix0 (fun a => a.elim0)]
    show IntOp.cmpi .slt (idx (ix1 e)) 0#32 ≠ 1#1
    rw [Ne, IntOp.cmpi_slt, BitVec.toInt_eq_toNat_of_lt (by omega)]
    show ¬ ((idx (ix1 e)).toNat : ℤ) < (0#32 : BitVec 32).toInt
    rw [show (0#32 : BitVec 32).toInt = 0 from by decide]
    omega
  rw [Scalar.select]
  exact if_neg hc

/-- A fold of `and` from `true` over an index set of one element is the function's one value. -/
theorem fold_andi_one {n : Nat} (hn : n = 1) (g : Fin n → BitVec 1) (k : Fin n) :
    (Finset.univ : Finset (Fin n)).fold IntOp.andi (1#1) g = g k := by
  subst hn
  have hk : k = default := Subsingleton.elim _ _
  have h1 : ∀ y : BitVec 1, IntOp.andi y 1#1 = y := by decide
  rw [Finset.univ_unique, Finset.fold_singleton, hk]
  exact h1 _

/-- An `and` down a column of height one, started from `true`, is the column's entry. -/
theorem reduce_col_andi (x : IVec S1600000x1 1) (e : Fin 1600000) :
    Host.reduce IntOp.andi x (constantI S_ 1 1#1) reducesTo_S1600000x1_S1600000_d1 h_S_ (ix1 e) = x (ix2 e (0 : Fin 1)) := by
  have hR : S1600000x1.Reduces [1] S1600000 := by decide
  rw [Host.reduce_eq_fold_single IntOp.andi x _ reducesTo_S1600000x1_S1600000_d1 hR h_S_ (ix1 e)]
  refine (fold_andi_one (n := S1600000x1.size 1) rfl (x ∘ hR.lift (ix1 e)) ⟨0, Nat.one_pos⟩).trans ?_
  exact congrArg x (funext fun a => Fin.ext (by match a with | ⟨0, _⟩ => rfl | ⟨1, _⟩ => rfl))

/-- A column entry below the table's height passes both comparisons. -/
theorem rowMask_apply (col : IVec S1600000x1 32) (e : Fin 1600000) (he : (col (ix2 e (0 : Fin 1))).toNat < 50000) :
    rowMask col (ix1 e) = 1#1 := by
  unfold rowMask
  rw [reduce_col_andi]
  show IntOp.andi (IntOp.cmpi .sge (col (ix2 e (0 : Fin 1))) 0#32) (IntOp.cmpi .sle (col (ix2 e (0 : Fin 1))) 49999#32) = 1#1
  have hc : (col (ix2 e (0 : Fin 1))).toInt = ((col (ix2 e (0 : Fin 1))).toNat : ℤ) := BitVec.toInt_eq_toNat_of_lt (by omega)
  rw [IntOp.andi_eq_one, IntOp.cmpi_sge, IntOp.cmpi_sle, hc,
    show (0#32 : BitVec 32).toInt = 0 from by decide, show (49999#32 : BitVec 32).toInt = 49999 from by decide]
  omega

/-- Where the index word is below the table's height the take reads the row at the word. -/
theorem take_apply (h : FVec Ideal S50000x128 .f32) (idx : IVec S1600000 32) (e : Fin 1600000) (j : Fin 128)
    (he : (idx (ix1 e)).toNat < 50000) : take h idx (ix2 e j) = h (ix2 ⟨(idx (ix1 e)).toNat, he⟩ j) := by
  have hw := wrapCol_apply idx e he
  have hlt : (wrapCol idx (ix2 e (0 : Fin 1))).toNat < 50000 := by rw [hw]; exact he
  unfold take
  rw [select_apply, broadcastInDim_apply _ bcast_S1600000_S1600000x128_0 _ (ix2 e j) (ix1 e) (fun a => match a with
    | ⟨0, _⟩ => by show e.val = if (1600000 : Nat) = 1 then 0 else e.val; rw [if_neg (by decide)]),
    rowMask_apply _ e hlt, select_one,
    Cert.LibScatterGather2.gather_apply _ rfl rfl rfl rfl rfl h (wrapCol idx) e j (by decide) hlt]
  exact congrArg h (congrArg (fun r => ix2 r j) (Fin.ext (congrArg BitVec.toNat hw)))

/-! ## From two gathered tables to the score -/

/-- The host's negation and exponential at an index, on the extended reals. -/
theorem hostNegf_apply {s : Shape} (x : FVec Ideal s .f32) (i : s.Idx) : Host.negf (F := Ideal) x i = -(x i) := rfl
theorem hostExp_apply {s : Shape} (x : FVec Ideal s .f32) (i : s.Idx) : Host.exp (F := Ideal) x i = Ideal.exp (x i) := rfl

/-- A splat of a word over the edges reads the word everywhere. -/
theorem splat_apply (c : FVec Ideal S_ .f32) (e : Fin 1600000) :
    broadcastInDim S1600000 ![] bcast_S_S1600000 c (ix1 e) = c ix0 :=
  broadcastInDim_apply _ bcast_S_S1600000 c (ix1 e) ix0 (fun a => a.elim0)

/-- Column 0 of a gathered table, as a vector. -/
def col0 (a : FVec Ideal S1600000x128 .f32) : FVec Ideal S1600000 .f32 :=
  shapeCast S1600000 (extractStridedSlice S1600000x1 ![0, 0] a slices_S1600000x128_S1600000x1_0_0) shapeCasts_S1600000x1_S1600000

theorem col0_apply (a : FVec Ideal S1600000x128 .f32) (e : Fin 1600000) : col0 a (ix1 e) = a (ix2 e (0 : Fin 128)) := by
  unfold col0
  rw [shapeCast_apply _ shapeCasts_S1600000x1_S1600000 (ix1 e) (ix2 e (0 : Fin 1))
    (by rewrite [Shape.rowMajor_val_two, Shape.rowMajor_val_one]; show e.val * 1 + 0 = e.val; omega)]
  exact extractStridedSlice_apply ![0, 0] a slices_S1600000x128_S1600000x1_0_0 (ix2 e (0 : Fin 1)) (ix2 e (0 : Fin 128)) (fun b => match b with
    | ⟨0, _⟩ => by show e.val = 0 + e.val; omega
    | ⟨1, _⟩ => rfl)

/-- The sum along a row, started from the zero word. -/
theorem rowSum_apply (y : FVec Ideal S1600000x128 .f32) (e : Fin 1600000) :
    Host.reduceAdd (F := Ideal) y (constant (F := Ideal) S_ .f32 0x00000000#32) reducesTo_S1600000x128_S1600000_d1 h_S_ (ix1 e)
      = ∑ j : Fin 128, y (ix2 e j) := by
  simp only [Host.reduceAdd, Ideal.hostReduceAdd_def]
  rw [Ideal.hostReduceAdd_single reducesTo_S1600000x128_S1600000_d1 (by decide)]
  refine (congrArg (· + _) Ideal.ofBits_zero_f32).trans ((zero_add _).trans ?_)
  refine Finset.sum_congr rfl fun k _ => ?_
  exact congrArg y (funext fun a => Fin.ext (by match a with | ⟨0, _⟩ => rfl | ⟨1, _⟩ => rfl))

/-- The clip's operand: `−(1 + (Σ_j a[e, j] · b[e, j] − 2 · a[e, 0] · b[e, 0]))`, row by row. -/
def negArg (a b : FVec Ideal S1600000x128 .f32) : FVec Ideal S1600000 .f32 :=
  Host.negf (addf (broadcastInDim S1600000 ![] bcast_S_S1600000 (constant (F := Ideal) S_ .f32 0x3F800000#32))
    (subf (Host.reduceAdd (F := Ideal) (mulf a b) (constant (F := Ideal) S_ .f32 0x00000000#32) reducesTo_S1600000x128_S1600000_d1 h_S_)
      (mulf (mulf (broadcastInDim S1600000 ![] bcast_S_S1600000 (constant (F := Ideal) S_ .f32 0x40000000#32)) (col0 a)) (col0 b))))

theorem negArg_apply (a b : FVec Ideal S1600000x128 .f32) (e : Fin 1600000) :
    negArg a b (ix1 e) = -(one + innerFull (fun j => a (ix2 e j)) (fun j => b (ix2 e j))) := by
  unfold negArg innerFull
  rw [hostNegf_apply, addf_apply, subf_apply, mulf_apply, mulf_apply, splat_apply, splat_apply, constant_apply, constant_apply,
    rowSum_apply, col0_apply, col0_apply]
  simp only [mulf_apply]

/-- The clip to `[lo, hi]`, the bounds given as words: `min hi (max lo z)`, entry by entry. -/
def clipFn (lo hi : FVec Ideal S_ .f32) (z : FVec Ideal S1600000 .f32) : FVec Ideal S1600000 .f32 :=
  minimumf (broadcastInDim S1600000 ![] bcast_S_S1600000 (id hi)) (maximumf (broadcastInDim S1600000 ![] bcast_S_S1600000 (id lo)) z)

/-- `exp (−z)`, entry by entry. -/
def expNeg (z : FVec Ideal S1600000 .f32) : FVec Ideal S1600000 .f32 := Host.exp (F := Ideal) (Host.negf (F := Ideal) z)

/-- The host lines after the two takes, as one function of the table and the edge list. -/
def tailFn (h : FVec Ideal S50000x128 .f32) (E : IVec S2x1600000 32) : FVec Ideal S1600000 .f32 :=
  expNeg (clipFn (constant (F := Ideal) S_ .f32 0x2EDBE6FF#32) (constant (F := Ideal) S_ .f32 0x3F800000#32)
    (negArg (take h (srcRow E)) (take h (dstRow E))))

theorem take_node (h : FVec Ideal S50000x128 .f32) (E : IVec S2x1600000 32) (hE : InRange E) (e : Fin 1600000) (j : Fin 128) :
    take h (srcRow E) (ix2 e j) = h (ix2 (node E hE 0 e) j) ∧ take h (dstRow E) (ix2 e j) = h (ix2 (node E hE 1 e) j) := by
  have hs := srcRow_apply E e
  have hd := dstRow_apply E e
  have hes : (srcRow E (ix1 e)).toNat < 50000 := by rw [hs]; exact hE 0 e
  have hed : (dstRow E (ix1 e)).toNat < 50000 := by rw [hd]; exact hE 1 e
  constructor
  · rw [take_apply h _ e j hes]
    refine congrArg h (congrArg (fun r => ix2 r j) (Fin.ext ?_))
    show (srcRow E (ix1 e)).toNat = (E (ix2 (0 : Fin 2) e)).toNat
    rw [hs]
  · rw [take_apply h _ e j hed]
    refine congrArg h (congrArg (fun r => ix2 r j) (Fin.ext ?_))
    show (dstRow E (ix1 e)).toNat = (E (ix2 (1 : Fin 2) e)).toNat
    rw [hd]

theorem tailFn_apply (h : FVec Ideal S50000x128 .f32) (E : IVec S2x1600000 32) (hE : InRange E) (e : Fin 1600000) :
    tailFn h E (ix1 e)
      = score (innerFull (fun j => h (ix2 (node E hE 0 e) j)) (fun j => h (ix2 (node E hE 1 e) j))) := by
  unfold tailFn expNeg clipFn score
  rw [hostExp_apply, hostNegf_apply, minimumf_apply, maximumf_apply, splat_apply, splat_apply, id_eq, id_eq, constant_apply, constant_apply,
    negArg_apply]
  simp only [(take_node h E hE e _).1, (take_node h E hE e _).2]

/-! ## The host lines, stretch by stretch, from any contents -/

section Stretches
variable (V : Valuation τ sig (Elt Ideal))

theorem stage1_v3 : (after (hostOps1 (F := Ideal)) V (Proc.devRef .tc main_v3) : S1600000.Idx → BitVec 32) = srcRow (V (Proc.devRef .tc main_arg1)) := by
  after_results
  rfl
theorem stage1_v5 : (after (hostOps1 (F := Ideal)) V (Proc.devRef .tc main_v5) : S1600000.Idx → BitVec 32) = dstRow (V (Proc.devRef .tc main_arg1)) := by
  after_results
  rfl
theorem stage1_v1 : after (hostOps1 (F := Ideal)) V (Proc.devRef .tc main_v1) = V (Proc.devRef .tc main_v1) := by
  after_results

/-! ### The take of `main_v3`: the column, the mask, the selection -/

theorem splitSrc : (hostOps1_1 (F := Ideal)) = List.take 8 hostOps1_1 ++ (List.take 10 (List.drop 8 hostOps1_1) ++ List.drop 18 hostOps1_1) := rfl

set_option maxRecDepth 8192 in
theorem colOfSrc : (after (List.take 8 (hostOps1_1 (F := Ideal))) V (Proc.devRef .tc main_call0_v5) : S1600000x1.Idx → BitVec 32)
    = wrapCol (V (Proc.devRef .tc main_v3)) := by
  simp only [hostOps1_1, List.take_succ_cons, List.take_zero]
  after_results
  conv_rhs => unfold wrapCol
  rfl
set_option maxRecDepth 8192 in
theorem colOfSrc_v1 : after (List.take 8 (hostOps1_1 (F := Ideal))) V (Proc.devRef .tc main_v1) = V (Proc.devRef .tc main_v1) := by
  simp only [hostOps1_1, List.take_succ_cons, List.take_zero]
  after_results

attribute [local irreducible] Host.reduce in
set_option maxRecDepth 8192 in
theorem maskOfSrc : (after (List.take 10 (List.drop 8 (hostOps1_1 (F := Ideal)))) V (Proc.devRef .tc main_call0_v12) : S1600000.Idx → BitVec 1)
    = rowMask (V (Proc.devRef .tc main_call0_v5)) := by
  simp only [hostOps1_1, List.drop_succ_cons, List.drop_zero, List.take_succ_cons, List.take_zero]
  after_results
  unfold rowMask
  refine congrArg₂ (fun (x : IVec S1600000x1 1) (v : IVec S_ 1) => Host.reduce IntOp.andi x v reducesTo_S1600000x1_S1600000_d1 h_S_) ?_ ?_
  · rfl
  · rfl
set_option maxRecDepth 8192 in
theorem maskOfSrc_v1 : after (List.take 10 (List.drop 8 (hostOps1_1 (F := Ideal)))) V (Proc.devRef .tc main_v1) = V (Proc.devRef .tc main_v1) := by
  simp only [hostOps1_1, List.drop_succ_cons, List.drop_zero, List.take_succ_cons, List.take_zero]
  after_results
set_option maxRecDepth 8192 in
theorem maskOfSrc_v5 : after (List.take 10 (List.drop 8 (hostOps1_1 (F := Ideal)))) V (Proc.devRef .tc main_call0_v5) = V (Proc.devRef .tc main_call0_v5) := by
  simp only [hostOps1_1, List.drop_succ_cons, List.drop_zero, List.take_succ_cons, List.take_zero]
  after_results

set_option maxRecDepth 8192 in
theorem rowsOfSrc : (after (List.drop 18 (hostOps1_1 (F := Ideal))) V (Proc.devRef .tc main_v6) : S1600000x128.Idx → EReal)
    = select (broadcastInDim S1600000x128 ![0] bcast_S1600000_S1600000x128_0 (V (Proc.devRef .tc main_call0_v12) : S1600000.Idx → BitVec 1))
        (Host.gather gather_S50000x128_S1600000x1_S1600000x128_1_0_n_n_0_1_1128 (V (Proc.devRef .tc main_v1) : S50000x128.Idx → EReal)
          (V (Proc.devRef .tc main_call0_v5) : S1600000x1.Idx → BitVec 32))
        (broadcastInDim S1600000x128 ![] bcast_S_S1600000x128 (constant (F := Ideal) S_ .f32 0x7FC00000#32)) := by
  simp only [hostOps1_1, List.drop_succ_cons, List.drop_zero]
  after_results
  rfl

/-- The first take leaves the rows of the table at the sources. -/
theorem stage2_v6 : (after (hostOps1_1 (F := Ideal)) V (Proc.devRef .tc main_v6) : S1600000x128.Idx → EReal)
    = take (V (Proc.devRef .tc main_v1)) (V (Proc.devRef .tc main_v3)) := by
  rw [splitSrc, StableHlo.after_append, StableHlo.after_append, rowsOfSrc, maskOfSrc, maskOfSrc_v1, maskOfSrc_v5, colOfSrc, colOfSrc_v1]
  rfl
set_option maxRecDepth 8192 in
theorem stage2_v5 : after (hostOps1_1 (F := Ideal)) V (Proc.devRef .tc main_v5) = V (Proc.devRef .tc main_v5) := by
  after_results
set_option maxRecDepth 8192 in
theorem stage2_v1 : after (hostOps1_1 (F := Ideal)) V (Proc.devRef .tc main_v1) = V (Proc.devRef .tc main_v1) := by
  after_results

/-! ### The take of `main_v5`: the column, the mask, the selection -/

theorem splitDst : (hostOps1_2 (F := Ideal)) = List.take 8 hostOps1_2 ++ (List.take 10 (List.drop 8 hostOps1_2) ++ List.drop 18 hostOps1_2) := rfl

set_option maxRecDepth 8192 in
theorem colOfDst : (after (List.take 8 (hostOps1_2 (F := Ideal))) V (Proc.devRef .tc main_call1_v5) : S1600000x1.Idx → BitVec 32)
    = wrapCol (V (Proc.devRef .tc main_v5)) := by
  simp only [hostOps1_2, List.take_succ_cons, List.take_zero]
  after_results
  conv_rhs => unfold wrapCol
  rfl
set_option maxRecDepth 8192 in
theorem colOfDst_v1 : after (List.take 8 (hostOps1_2 (F := Ideal))) V (Proc.devRef .tc main_v1) = V (Proc.devRef .tc main_v1) := by
  simp only [hostOps1_2, List.take_succ_cons, List.take_zero]
  after_results

attribute [local irreducible] Host.reduce in
set_option maxRecDepth 8192 in
theorem maskOfDst : (after (List.take 10 (List.drop 8 (hostOps1_2 (F := Ideal)))) V (Proc.devRef .tc main_call1_v12) : S1600000.Idx → BitVec 1)
    = rowMask (V (Proc.devRef .tc main_call1_v5)) := by
  simp only [hostOps1_2, List.drop_succ_cons, List.drop_zero, List.take_succ_cons, List.take_zero]
  after_results
  unfold rowMask
  refine congrArg₂ (fun (x : IVec S1600000x1 1) (v : IVec S_ 1) => Host.reduce IntOp.andi x v reducesTo_S1600000x1_S1600000_d1 h_S_) ?_ ?_
  · rfl
  · rfl
set_option maxRecDepth 8192 in
theorem maskOfDst_v1 : after (List.take 10 (List.drop 8 (hostOps1_2 (F := Ideal)))) V (Proc.devRef .tc main_v1) = V (Proc.devRef .tc main_v1) := by
  simp only [hostOps1_2, List.drop_succ_cons, List.drop_zero, List.take_succ_cons, List.take_zero]
  after_results
set_option maxRecDepth 8192 in
theorem maskOfDst_v5 : after (List.take 10 (List.drop 8 (hostOps1_2 (F := Ideal)))) V (Proc.devRef .tc main_call1_v5) = V (Proc.devRef .tc main_call1_v5) := by
  simp only [hostOps1_2, List.drop_succ_cons, List.drop_zero, List.take_succ_cons, List.take_zero]
  after_results

set_option maxRecDepth 8192 in
theorem rowsOfDst : (after (List.drop 18 (hostOps1_2 (F := Ideal))) V (Proc.devRef .tc main_v7) : S1600000x128.Idx → EReal)
    = select (broadcastInDim S1600000x128 ![0] bcast_S1600000_S1600000x128_0 (V (Proc.devRef .tc main_call1_v12) : S1600000.Idx → BitVec 1))
        (Host.gather gather_S50000x128_S1600000x1_S1600000x128_1_0_n_n_0_1_1128 (V (Proc.devRef .tc main_v1) : S50000x128.Idx → EReal)
          (V (Proc.devRef .tc main_call1_v5) : S1600000x1.Idx → BitVec 32))
        (broadcastInDim S1600000x128 ![] bcast_S_S1600000x128 (constant (F := Ideal) S_ .f32 0x7FC00000#32)) := by
  simp only [hostOps1_2, List.drop_succ_cons, List.drop_zero]
  after_results
  rfl

/-- The second take leaves the rows of the table at the destinations. -/
theorem stage3_v7 : (after (hostOps1_2 (F := Ideal)) V (Proc.devRef .tc main_v7) : S1600000x128.Idx → EReal)
    = take (V (Proc.devRef .tc main_v1)) (V (Proc.devRef .tc main_v5)) := by
  rw [splitDst, StableHlo.after_append, StableHlo.after_append, rowsOfDst, maskOfDst, maskOfDst_v1, maskOfDst_v5, colOfDst, colOfDst_v1]
  rfl
set_option maxRecDepth 8192 in
theorem stage3_v6 : after (hostOps1_2 (F := Ideal)) V (Proc.devRef .tc main_v6) = V (Proc.devRef .tc main_v6) := by
  after_results

set_option maxRecDepth 8192 in
theorem stage4_v20 : (after (hostOps1_3 (F := Ideal)) V (Proc.devRef .tc main_v20) : S1600000.Idx → EReal)
    = negArg (V (Proc.devRef .tc main_v6)) (V (Proc.devRef .tc main_v7)) := by
  after_results
  rfl
set_option maxRecDepth 8192 in
theorem stage4_cst2 : (after (hostOps1_3 (F := Ideal)) V (Proc.devRef .tc main_cst_2) : S_.Idx → EReal)
    = constant (F := Ideal) S_ .f32 0x2EDBE6FF#32 := by
  after_results
set_option maxRecDepth 8192 in
theorem stage4_cst3 : (after (hostOps1_3 (F := Ideal)) V (Proc.devRef .tc main_cst_3) : S_.Idx → EReal)
    = constant (F := Ideal) S_ .f32 0x3F800000#32 := by
  after_results

theorem stage5_v21 : (after (hostOps1_4 (F := Ideal)) V (Proc.devRef .tc main_v21) : S1600000.Idx → EReal)
    = clipFn (V (Proc.devRef .tc main_cst_2)) (V (Proc.devRef .tc main_cst_3)) (V (Proc.devRef .tc main_v20)) := by
  after_results
  rfl

theorem stage6_v23 : (after (hostOps1_5 (F := Ideal)) V (Proc.devRef .tc main_v23) : S1600000.Idx → EReal)
    = expNeg (V (Proc.devRef .tc main_v21)) := by
  after_results
  rfl

end Stretches

/-- The whole tail from any contents: the score function of the table and the edge list then in the buffers. -/
theorem tail_value (Wv : Valuation τ sig (Elt Ideal)) :
    (after (List.flatten [hostOps1 (F := Ideal), hostOps1_1, hostOps1_2, hostOps1_3, hostOps1_4, hostOps1_5]) Wv (Proc.devRef .tc main_v23) : S1600000.Idx → EReal)
      = tailFn (Wv (Proc.devRef .tc main_v1)) (Wv (Proc.devRef .tc main_arg1)) := by
  simp only [List.flatten_cons, List.flatten_nil, List.append_nil, StableHlo.after_append]
  rw [stage6_v23, stage5_v21, stage4_v20, stage4_cst2, stage4_cst3, stage3_v7, stage3_v6, stage2_v6, stage2_v5, stage2_v1,
    stage1_v3, stage1_v5, stage1_v1]
  rfl

/-- The score the host lines leave for edge `e`, from any contents whose edge list names nodes only: the score of the
    rows of the table at the edge's two ends. -/
theorem tail_result (Wv : Valuation τ sig (Elt Ideal)) (hE : InRange (Wv (Proc.devRef .tc main_arg1))) (e : Fin 1600000) :
    (StableHlo.after (List.flatten [hostOps1, hostOps1_1, hostOps1_2, hostOps1_3, hostOps1_4, hostOps1_5]) Wv (Proc.devRef .tc main_v23) : S1600000.Idx → EReal) (ix1 e)
      = score (innerFull (fun j => (Wv (Proc.devRef .tc main_v1) : S50000x128.Idx → EReal) (ix2 (node (Wv (Proc.devRef .tc main_arg1)) hE 0 e) j)) (fun j => (Wv (Proc.devRef .tc main_v1) : S50000x128.Idx → EReal) (ix2 (node (Wv (Proc.devRef .tc main_arg1)) hE 1 e) j))) := by
  rw [tail_value Wv]
  exact tailFn_apply _ _ hE e

end Cert.Lorentz.Tail
end
-- ==== Proof.PreFacts.lean ====
/-
  Two facts the certificate rests on, over the shared specification.

  First, the precondition read back. It is a conjunction of five tests, each over all entries of an array: the entries
  of `x`, of `W` and of `b` have absolute value below `+∞`, and the entries of the edge list are at least 0 and below
  50000 in the signed reading of their 32-bit words. An extended real whose absolute value `max a (−a)` is below `+∞` is
  neither `+∞` nor `−∞`, hence a real number; a word whose signed reading is non-negative has its top bit clear, so its
  signed and unsigned readings are one number, and the unsigned reading is below 50000 too.

  Second, the algebra on real inputs. With real entries every space coordinate `lin n j` is a finite sum of products
  of reals plus a real, hence real; the argument of the root in `time n` is a sum of squares plus one, a non-negative
  real, so `time n` is its real root. The kept row `point n = (time n, lin n 0, …, lin n 126)` is therefore a row of
  reals, on which the plain dot product less twice the product of the first entries equals the negated product of the
  first entries plus the dot product of the other 127: the score of the one is the edge score.
-/
import proofs.«417361_j56788057588127_3_alg».proof.Pre_finite_inputs
import proofs.«417361_j56788057588127_3_alg».proof.Proof.Spec
import Idealize.ShloMosaic.Lib.ReduceAll
import Idealize.ShloMosaic.Lib.StableHlo.Predicate
import Idealize.ShloMosaic.Lib.ValueIdx
import Idealize.ShloMosaic.PureOps.Ideal.Laws

noncomputable section

namespace Cert.Lorentz.Pre

open Idealize.ShloMosaic Idealize.ShloMosaic.ValueIdx Cert.Lorentz

/-! ## The precondition, read back

The predicate is the conjunction of five tests over all entries: `|x| < +∞`, `|W| < +∞`, `|b| < +∞` entrywise, and
`0 ≤ E`, `E < 50000` entrywise in the signed reading of the 32-bit words. -/

instance : Subsingleton Cert.Pre_finite_inputs.S_.Idx := ⟨fun a b => funext fun d => d.elim0⟩

/-- An extended real whose absolute value `max a (-a)` lies below `+∞` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- The word `0x7F800000` denotes `+∞`. -/
theorem inf_word : Ideal.ofBits .f32 0x7F800000#32 = (⊤ : EReal) := by
  simp [Ideal.ofBits, Ideal.ieee]

/-- One entry of `|v| < broadcast (+∞)` reading 1 says that entry of `v` is a real number. -/
theorem real_of_entry {t : Shape} (hb : Cert.Pre_finite_inputs.S_.BroadcastsInDim t (![] : Fin 0 → Fin t.rank))
    (v : FVec Ideal t .f32) (i : t.Idx)
    (h : cmpf .olt (Host.absf v)
      (broadcastInDim t ![] hb (constant (F := Ideal) Cert.Pre_finite_inputs.S_ .f32 0x7F800000#32)) i = 1#1) :
    ∃ r : ℝ, v i = (r : EReal) := by
  have h' : Ideal.cmp .olt (max (v i) (-(v i))) (Ideal.ofBits .f32 0x7F800000#32) = 1#1 := h
  rw [inf_word] at h'
  simp only [Ideal.cmp, StableHlo.Predicate.ofBool_eq_one_iff, decide_eq_true_eq] at h'
  exact real_of_abs_lt_top (v i) h'

/-- A 32-bit word whose signed reading is at least 0 and below 50000 has its unsigned reading below 50000: a word with
    a non-negative signed reading has the top bit clear, and then the two readings are one number. -/
theorem toNat_lt_of_signed (a : BitVec 32) (h0 : IntOp.cmpi .sge a 0#32 = 1#1) (h1 : IntOp.cmpi .slt a 50000#32 = 1#1) :
    a.toNat < 50000 := by
  have h0' : BitVec.ofBool ((0#32 : BitVec 32).sle a) = 1#1 := h0
  have h1' : BitVec.ofBool (a.slt (50000#32 : BitVec 32)) = 1#1 := h1
  simp only [StableHlo.Predicate.ofBool_eq_one_iff, BitVec.sle, BitVec.slt, decide_eq_true_eq] at h0' h1'
  have z : (0#32 : BitVec 32).toInt = 0 := by decide
  have c : (50000#32 : BitVec 32).toInt = 50000 := by decide
  rw [z] at h0'
  rw [c] at h1'
  have ht := BitVec.toInt_eq_toNat_cond a
  have hlt := a.isLt
  split at ht <;> omega

theorem facts_of_pre [Cert.Pre_finite_inputs.Facts] (x : FVec Ideal Sx .f32) (E : IVec Se 32) (W : FVec Ideal Sw .f32)
    (b : FVec Ideal Sb .f32) (h : Cert.Pre_finite_inputs.fn (F := Ideal) x E W b = fun _ => 1#1) :
    (∀ i, ∃ r : ℝ, x i = (r : EReal)) ∧ (∀ i, ∃ r : ℝ, W i = (r : EReal)) ∧ (∀ i, ∃ r : ℝ, b i = (r : EReal)) ∧ InRange E := by
  have h0 := congrFun h ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_, fun r e => ?_⟩
  · exact real_of_entry _ x i (Host.reduce_andi_all _ _ _ _ _ h1 i)
  · exact real_of_entry _ W i (Host.reduce_andi_all _ _ _ _ _ h2 i)
  · exact real_of_entry _ b i (Host.reduce_andi_all _ _ _ _ _ h3 i)
  · exact toNat_lt_of_signed (E (ix2 r e)) (Host.reduce_andi_all _ _ _ _ _ h4 (ix2 r e))
      (Host.reduce_andi_all _ _ _ _ _ h5 (ix2 r e))

/-! ## Real inputs give real rows

With every entry of `x`, `W`, `b` a real number, each space coordinate is a finite sum of products of reals plus a real,
and each time coordinate is the root of a non-negative real: both are real numbers, so the kept row of a node is a row
of reals and the two spellings of the inner product agree on it. -/

section Real

variable (x : FVec Ideal Sx .f32) (W : FVec Ideal Sw .f32) (b : FVec Ideal Sb .f32)
variable (hx : ∀ i, ∃ r : ℝ, x i = (r : EReal)) (hW : ∀ i, ∃ r : ℝ, W i = (r : EReal)) (hb : ∀ i, ∃ r : ℝ, b i = (r : EReal))

include hx hW hb in
/-- Every space coordinate is a real number. -/
theorem lin_real (n : Fin 50000) (j : Fin 128) : ∃ r : ℝ, lin x W b n j = (r : EReal) := by
  choose fx hfx using hx
  choose fW hfW using hW
  choose fb hfb using hb
  refine ⟨(∑ k : Fin 128, fx (ix2 n k) * fW (ix2 j k)) + fb (ix1 j), ?_⟩
  unfold lin
  simp only [hfx, hfW, hfb]
  rw [EReal.coe_add, coe_sum]
  simp only [EReal.coe_mul]

include hx hW hb in
/-- Every time coordinate is a real number: the root of a sum of squares plus one. -/
theorem time_real (n : Fin 50000) : ∃ r : ℝ, time x W b n = (r : EReal) := by
  choose fl hfl using fun j => lin_real x W b hx hW hb n j
  have hnn : (0 : ℝ) ≤ (∑ j : Fin 128, fl j * fl j) + 1 :=
    add_nonneg (Finset.sum_nonneg fun j _ => mul_self_nonneg (fl j)) zero_le_one
  refine ⟨Real.sqrt ((∑ j : Fin 128, fl j * fl j) + 1), ?_⟩
  unfold time
  simp only [hfl]
  rw [one_eq]
  have e : (∑ j : Fin 128, ((fl j : ℝ) : EReal) * ((fl j : ℝ) : EReal)) + ((1 : ℝ) : EReal)
      = (((∑ j : Fin 128, fl j * fl j) + 1 : ℝ) : EReal) := by
    rw [EReal.coe_add, coe_sum]
    simp only [EReal.coe_mul]
  rw [e, Ideal.sqrt_coe, if_neg (not_lt.2 hnn)]

/-- The first kept number is the time coordinate. -/
theorem point_zero (n : Fin 50000) : point x W b n 0 = time x W b n := by
  unfold point
  exact if_pos rfl

/-- Kept number `j + 1` is space coordinate `j`, for `j < 127`. -/
theorem point_succ (n : Fin 50000) (j : Fin 127) : point x W b n j.succ = lin x W b n (Fin.castSucc j) := by
  unfold point
  rw [if_neg (by simp)]
  congr 1

include hx hW hb in
/-- The kept row of a node is a row of real numbers. -/
theorem point_real (n : Fin 50000) : ∃ u : Fin 128 → ℝ, ∀ j, point x W b n j = (u j : EReal) := by
  obtain ⟨t, ht⟩ := time_real x W b hx hW hb n
  choose fl hfl using fun j => lin_real x W b hx hW hb n j
  refine ⟨fun j => if j.val = 0 then t else fl ⟨j.val - 1, by omega⟩, fun j => ?_⟩
  unfold point
  dsimp only
  by_cases hj : j.val = 0
  · rw [if_pos hj, if_pos hj, ht]
  · rw [if_neg hj, if_neg hj, hfl]

include hx hW hb in
/-- On real inputs the score of the plain dot product of two kept rows less twice the product of their first entries
    is the edge score. -/
theorem score_point_eq (s d : Fin 50000) :
    score (innerFull (point x W b s) (point x W b d)) = edgeScore x W b s d := by
  obtain ⟨u, hu⟩ := point_real x W b hx hW hb s
  obtain ⟨v, hv⟩ := point_real x W b hx hW hb d
  have hu' : point x W b s = fun j => (u j : EReal) := funext hu
  have hv' : point x W b d = fun j => (v j : EReal) := funext hv
  have eu0 : (u 0 : EReal) = time x W b s := by rw [← hu 0, point_zero]
  have ev0 : (v 0 : EReal) = time x W b d := by rw [← hv 0, point_zero]
  have eus : (fun j : Fin 127 => (u j.succ : EReal)) = fun j => lin x W b s (Fin.castSucc j) :=
    funext fun j => by rw [← hu j.succ, point_succ]
  have evs : (fun j : Fin 127 => (v j.succ : EReal)) = fun j => lin x W b d (Fin.castSucc j) :=
    funext fun j => by rw [← hv j.succ, point_succ]
  unfold edgeScore
  rw [hu', hv', innerFull_eq_innerSplit u v, eu0, ev0, eus, evs]

end Real

end Cert.Lorentz.Pre

end
-- ==== Proof.KernelResult.lean ====
/-
  The kernel's result at an edge: the host lines after the kernel, started from the table the kernel left, score edge `e`
  by the specification's `edgeScore` of the two nodes the edge names.

  Three facts meet. The later lines start from the device's buffers with the pipeline's arrays at what the write-backs
  left: the output array is the table (row `n` = `point x W b n`), the edge list is as launched. Read at edge `e` over any
  such start, with every entry of the edge list a node, the lines give `score (innerFull row_s row_d)` of the two table
  rows. And for real-valued `x`, `W`, `b` the kept rows are real, so the full dot product less twice the time product is
  the split inner product: `score (innerFull (point s) (point d)) = edgeScore s d`.
-/
import proofs.«417361_j56788057588127_3_alg».proof.Proof.FrameIdeal
import proofs.«417361_j56788057588127_3_alg».proof.Proof.TableValue
import proofs.«417361_j56788057588127_3_alg».proof.Proof.TailValue
import proofs.«417361_j56788057588127_3_alg».proof.Proof.PreFacts
import proofs.«417361_j56788057588127_3_alg».proof.Proof.Spec

set_option maxRecDepth 16384

noncomputable section

namespace Cert.KernelIdeal.Result

open Idealize.ShloMosaic Idealize.ShloMosaic.TcCoe Idealize.ShloMosaic.ValueIdx Idealize.ShloMosaic.StableHlo Idealize.SL.Sem
open Cert.KernelIdeal Cert.KernelIdeal.Gen Cert.KernelIdeal.Frm Cert.KernelIdeal.Table Cert.Lorentz

variable (m : (ℓ : Loc nD τ sig) → Buf (Elt Ideal) ℓ)

/-- The launch contents of the edge list on core `c`. -/
abbrev eArr (c : Dev nD) : S2x1600000.Idx → BitVec 32 := m ((c : Thread nD τ).loc main_arg1)

/-- The scores, edge by edge, as one array. -/
def scores (c : Dev nD) (hE : InRange (eArr m c)) : S1600000.Idx → EReal := fun i =>
  edgeScore (xArr m c) (wArr m c) (bArr m c) (node (eArr m c) hE 0 ⟨(i 0).val, (i 0).isLt⟩) (node (eArr m c) hE 1 ⟨(i 0).val, (i 0).isLt⟩)

/-- Entry `(n, j)` of the table is entry `j` of node `n`'s kept row. -/
theorem table_apply (c : Dev nD) (n : Fin 50000) (j : Fin 128) :
    table m c (ix2 n j) = point (xArr m c) (wArr m c) (bArr m c) n j := rfl

/-- What the later lines leave in the result buffer, at edge `e`. -/
theorem result_at (c : Dev nD)
    (hx : ∀ i, ∃ r : ℝ, xArr m c i = (r : EReal)) (hW : ∀ i, ∃ r : ℝ, wArr m c i = (r : EReal)) (hb : ∀ i, ∃ r : ℝ, bArr m c i = (r : EReal))
    (hE : InRange (eArr m c)) (e : Fin 1600000) :
    (Pipeline.afterTail₀ cfgs (dats m) 0 (V0 m) tailOps c main_v23 : S1600000.Idx → EReal) (ix1 e)
      = edgeScore (xArr m c) (wArr m c) (bArr m c) (node (eArr m c) hE 0 e) (node (eArr m c) hE 1 e) := by
  unfold Pipeline.afterTail₀
  generalize hWv : Pipeline.withArrays (cfgs 0).spec c (V0 m c) (fun w => (dats m 0 c).arrAt w (cfgs 0).N) = Wv
  have h1 : (Wv (Proc.devRef .tc main_v1) : S50000x128.Idx → EReal) = table m c := by
    rw [← hWv]
    exact (Pipeline.withArrays_arr spec0 launch0.win.arr_inj c _ _ 3).trans (Table.final m c)
  have h2 : (Wv (Proc.devRef .tc main_arg1) : S2x1600000.Idx → BitVec 32) = eArr m c := by
    rw [← hWv]
    exact (Pipeline.withArrays_of_ne spec0 c (V0 m c) _ main_arg1 (by decide)).trans (V_of_ne_v0 m c main_arg1 (by decide))
  have hE' : InRange (Wv (Proc.devRef .tc main_arg1)) := h2 ▸ hE
  have hn : ∀ r : Fin 2, node (Wv (Proc.devRef .tc main_arg1)) hE' r e = node (eArr m c) hE r e := fun r =>
    Fin.ext (congrArg (fun E : S2x1600000.Idx → BitVec 32 => (E (ix2 r e)).toNat) h2)
  refine (Cert.Lorentz.Tail.tail_result Wv hE' e).trans ?_
  rw [h1, hn 0, hn 1]
  simp only [table_apply]
  exact Cert.Lorentz.Pre.score_point_eq _ _ _ hx hW hb _ _

/-- The result buffer after the later lines is the array of scores. -/
theorem result_eq (c : Dev nD)
    (hx : ∀ i, ∃ r : ℝ, xArr m c i = (r : EReal)) (hW : ∀ i, ∃ r : ℝ, wArr m c i = (r : EReal)) (hb : ∀ i, ∃ r : ℝ, bArr m c i = (r : EReal))
    (hE : InRange (eArr m c)) :
    (Pipeline.afterTail₀ cfgs (dats m) 0 (V0 m) tailOps c main_v23 : S1600000.Idx → EReal) = scores m c hE := by
  funext i
  obtain ⟨e, rfl⟩ : ∃ e : Fin 1600000, i = ix1 e := ⟨i 0, eq_ix1 i⟩
  exact result_at m c hx hW hb hE e

end Cert.KernelIdeal.Result

end
-- ==== Proof.RefValue.lean ====
/-
  The reference's result at an edge is the Lorentzian edge score of the specification.

  The reference keeps 129 numbers per node: the time coordinate `time n = √(Σ_j (lin n j)² + 1)` joined in front of the
  128 space coordinates `lin n j = Σ_k x[n, k] · W[j, k] + b[j]`. Column 0 of the joined table is therefore the time
  and column `1 + j` is `lin n j`. The contraction runs against the transpose of `W`, and
  `(transpose W)[k, j] = W[j, k]`, which makes the sum the specification's; the float sums start from the zero word,
  which is the number 0 and drops out.

  The two ends of edge `e` are read from the edge list through "if the entry is negative then entry + 50000 else
  entry". An entry below 50000 is below 2³¹, so its signed reading is not negative and the wrap returns the entry
  itself; the row gathers then read the table at the nodes the edge names.

  The score takes column 0 of both gathered rows for `−time s · time d`, columns 1 to 127 for the dot product of the
  first 127 space coordinates, and applies `a ↦ exp (−min(1, max(lo, −(1 + a))))`. The words `1.0` and `1e-10` stay
  words throughout.
-/
import proofs.«417361_j56788057588127_3_alg».proof.Proof.Gen.ReferenceIdeal.Run
import proofs.«417361_j56788057588127_3_alg».proof.Proof.Gen.ReferenceIdeal.Read
import proofs.«417361_j56788057588127_3_alg».proof.Proof.Spec
import proofs.«417361_j56788057588127_3_alg».proof.Proof.LibScatterGather2

noncomputable section

namespace Cert.Lorentz.Ref

open Idealize.ShloMosaic Idealize.ShloMosaic.ValueIdx Cert.Lorentz
open Cert.ReferenceIdeal Cert.ReferenceIdeal.Gen Cert.ReferenceIdeal.Read

/-! ## The linear layer and the time coordinate -/

theorem lidx_v1_eq (n : Fin 50000) (j k : Fin 128) : lidx_main_v1 (ix2 n j) k = ix2 n k :=
  funext fun a => Fin.ext (by match a with | ⟨0, _⟩ => rfl | ⟨1, _⟩ => rfl)

theorem ridx_v1_eq (n : Fin 50000) (j k : Fin 128) : idx_main_v0 (ridx_main_v1 (ix2 n j) k) = ix2 j k :=
  funext fun a => Fin.ext (by match a with | ⟨0, _⟩ => rfl | ⟨1, _⟩ => rfl)

theorem idx_v3_eq (n : Fin 50000) (j : Fin 128) : idx_main_v2 (idx_main_v3 (ix2 n j)) = ix1 j :=
  funext fun a => Fin.ext (by match a with | ⟨0, _⟩ => rfl)

/-- The linear layer's result at row `n`, column `j`. -/
theorem lin_read (x : FVec Ideal Sx .f32) (W : FVec Ideal Sw .f32) (b : FVec Ideal Sb .f32) (n : Fin 50000) (j : Fin 128) :
    val_main_v4 (F := Ideal) x W b (ix2 n j) = lin x W b n j := by
  rw [val_main_v4_apply, val_main_v1_apply, val_main_v3_apply, val_main_v2_apply]
  simp only [val_main_v0_apply, lidx_v1_eq, ridx_v1_eq, idx_v3_eq, Ideal.addf_def]
  rfl

theorem idx_v6_eq (n : Fin 50000) (c : Fin 1) (k : Fin 128) : idx_main_v6 (idx_main_v7 (ix2 n c)) k = ix2 n k :=
  funext fun a => Fin.ext (by match a with | ⟨0, _⟩ => rfl | ⟨1, _⟩ => rfl)

/-- The time column at row `n`. -/
theorem time_read (x : FVec Ideal Sx .f32) (W : FVec Ideal Sw .f32) (b : FVec Ideal Sb .f32) (n : Fin 50000) (c : Fin 1) :
    val_main_v10 (F := Ideal) x W b (ix2 n c) = time x W b n := by
  rw [val_main_v10_apply, val_main_v9_apply, val_main_v7_apply, val_main_v6_apply, val_main_v8_apply,
    val_main_cst_0_apply, val_main_cst_apply]
  simp only [val_main_v5_apply, idx_v6_eq, lin_read, Ideal.hostUnary_sqrt_def, Ideal.addf_def, Ideal.mulf_def,
    Ideal.ofBits_def, Ideal.ofBits_zero_f32, zero_add]
  rfl

/-! ## The table of 129 numbers per node -/

/-- Column 0 of the joined table is the one column of the first piece. -/
theorem concat_left (u : S50000x1.Idx → EReal) (v : S50000x128.Idx → EReal)
    (h : Shape.Concatenates [S50000x1, S50000x128] S50000x129 1) (n : Fin 50000) :
    concatenate S50000x129 1 [⟨S50000x1, u⟩, ⟨S50000x128, v⟩] h (ix2 n (0 : Fin 129)) = u (ix2 n (0 : Fin 1)) := by
  refine concatenate_pair_apply_left (1 : Fin S50000x129.rank) u v h (ix2 n (0 : Fin 129)) rfl (ix2 n (0 : Fin 1)) ?_
  intro a
  match a with
  | ⟨0, _⟩ => rfl
  | ⟨1, _⟩ => rfl

/-- Column `1 + j` of the joined table is column `j` of the second piece. -/
theorem concat_right (u : S50000x1.Idx → EReal) (v : S50000x128.Idx → EReal)
    (h : Shape.Concatenates [S50000x1, S50000x128] S50000x129 1) (n : Fin 50000) (j : Fin 128) :
    concatenate S50000x129 1 [⟨S50000x1, u⟩, ⟨S50000x128, v⟩] h (ix2 n (⟨1 + j.val, by omega⟩ : Fin 129)) = v (ix2 n j) := by
  refine concatenate_pair_apply_right (1 : Fin S50000x129.rank) u v h (ix2 n (⟨1 + j.val, by omega⟩ : Fin 129)) rfl rfl (ix2 n j) ?_ ?_
  · intro a ha
    match a with
    | ⟨0, _⟩ => rfl
    | ⟨1, _⟩ => exact absurd rfl ha
  · show j.val + 1 = 1 + j.val
    omega

theorem table_time (x : FVec Ideal Sx .f32) (W : FVec Ideal Sw .f32) (b : FVec Ideal Sb .f32) (n : Fin 50000) :
    val_main_v11 (F := Ideal) x W b (ix2 n (0 : Fin 129)) = time x W b n := by
  unfold val_main_v11
  exact (concat_left _ _ _ n).trans (time_read x W b n 0)

theorem table_lin (x : FVec Ideal Sx .f32) (W : FVec Ideal Sw .f32) (b : FVec Ideal Sb .f32) (n : Fin 50000) (j : Fin 128) :
    val_main_v11 (F := Ideal) x W b (ix2 n (⟨1 + j.val, by omega⟩ : Fin 129)) = lin x W b n j := by
  unfold val_main_v11
  exact (concat_right _ _ _ n j).trans (lin_read x W b n j)

/-! ## The two index columns -/

/-- A word below 50000 is not negative in the signed reading. -/
theorem slt_zero (w : BitVec 32) (h : w.toNat < 50000) : IntOp.cmpi .slt w 0#32 = 0#1 := by
  have hi : w.toInt = (w.toNat : ℤ) := BitVec.toInt_eq_toNat_of_lt (by omega)
  have hn : ¬ ((w.toNat : ℤ) < 0) := by omega
  simp [IntOp.cmpi, BitVec.slt, hi, hn]

theorem idx_v21_eq (e : Fin 1600000) (c : Fin 1) :
    idx_main_v12 (idx_main_v13 (idx_main_v21 (ix2 e c))) = ix2 (0 : Fin 2) e :=
  funext fun a => Fin.ext (by match a with | ⟨0, _⟩ => rfl | ⟨1, _⟩ => exact Nat.mod_eq_of_lt e.isLt)

theorem idx_v28_eq (e : Fin 1600000) (c : Fin 1) :
    idx_main_v14 (idx_main_v15 (idx_main_v28 (ix2 e c))) = ix2 (1 : Fin 2) e :=
  funext fun a => Fin.ext (by match a with | ⟨0, _⟩ => rfl | ⟨1, _⟩ => exact Nat.mod_eq_of_lt e.isLt)

/-- The source column: under the range condition the wrap of negative entries does nothing. -/
theorem src_col (E : IVec Se 32) (hE : InRange E) (e : Fin 1600000) (c : Fin 1) :
    val_main_v21 (F := Ideal) E (ix2 e c) = E (ix2 (0 : Fin 2) e) := by
  rw [val_main_v21_apply, val_main_v20_apply, val_main_v17_apply, val_main_v13_apply, val_main_v12_apply,
    val_main_v16_apply, val_main_c_apply, idx_v21_eq, slt_zero _ (hE 0 e), select_zero]

/-- The destination column, likewise. -/
theorem dst_col (E : IVec Se 32) (hE : InRange E) (e : Fin 1600000) (c : Fin 1) :
    val_main_v28 (F := Ideal) E (ix2 e c) = E (ix2 (1 : Fin 2) e) := by
  rw [val_main_v28_apply, val_main_v27_apply, val_main_v24_apply, val_main_v15_apply, val_main_v14_apply,
    val_main_v23_apply, val_main_c_2_apply, idx_v28_eq, slt_zero _ (hE 1 e), select_zero]

/-! ## The two gathered tables -/

/-- Row `e` of the source gather is the table's row at the source node. -/
theorem gather_src (x : FVec Ideal Sx .f32) (E : IVec Se 32) (W : FVec Ideal Sw .f32) (b : FVec Ideal Sb .f32)
    (hE : InRange E) (e : Fin 1600000) (c : Fin 129) :
    val_main_v22 (F := Ideal) x E W b (ix2 e c) = val_main_v11 (F := Ideal) x W b (ix2 (node E hE 0 e) c) := by
  unfold val_main_v22
  generalize val_main_v11 (F := Ideal) x W b = T
  have h : (val_main_v21 (F := Ideal) E (ix2 e (0 : Fin 1))).toNat < 50000 := by rw [src_col E hE]; exact hE 0 e
  refine (Cert.LibScatterGather2.gather_apply gather_S50000x129_S1600000x1_S1600000x129_1_0_n_n_0_1_1129 rfl rfl rfl rfl rfl
    T (val_main_v21 (F := Ideal) E) e c (by norm_num) h).trans ?_
  refine congrArg T (congrArg (fun r => ix2 r c) (Fin.ext ?_))
  show (val_main_v21 (F := Ideal) E (ix2 e (0 : Fin 1))).toNat = (E (ix2 (0 : Fin 2) e)).toNat
  rw [src_col E hE]

/-- Row `e` of the destination gather is the table's row at the destination node. -/
theorem gather_dst (x : FVec Ideal Sx .f32) (E : IVec Se 32) (W : FVec Ideal Sw .f32) (b : FVec Ideal Sb .f32)
    (hE : InRange E) (e : Fin 1600000) (c : Fin 129) :
    val_main_v29 (F := Ideal) x E W b (ix2 e c) = val_main_v11 (F := Ideal) x W b (ix2 (node E hE 1 e) c) := by
  unfold val_main_v29
  generalize val_main_v11 (F := Ideal) x W b = T
  have h : (val_main_v28 (F := Ideal) E (ix2 e (0 : Fin 1))).toNat < 50000 := by rw [dst_col E hE]; exact hE 1 e
  refine (Cert.LibScatterGather2.gather_apply gather_S50000x129_S1600000x1_S1600000x129_1_0_n_n_0_1_1129 rfl rfl rfl rfl rfl
    T (val_main_v28 (F := Ideal) E) e c (by norm_num) h).trans ?_
  refine congrArg T (congrArg (fun r => ix2 r c) (Fin.ext ?_))
  show (val_main_v28 (F := Ideal) E (ix2 e (0 : Fin 1))).toNat = (E (ix2 (1 : Fin 2) e)).toNat
  rw [dst_col E hE]

theorem src_time (x : FVec Ideal Sx .f32) (E : IVec Se 32) (W : FVec Ideal Sw .f32) (b : FVec Ideal Sb .f32)
    (hE : InRange E) (e : Fin 1600000) :
    val_main_v22 (F := Ideal) x E W b (ix2 e (0 : Fin 129)) = time x W b (node E hE 0 e) :=
  (gather_src x E W b hE e 0).trans (table_time x W b _)

theorem dst_time (x : FVec Ideal Sx .f32) (E : IVec Se 32) (W : FVec Ideal Sw .f32) (b : FVec Ideal Sb .f32)
    (hE : InRange E) (e : Fin 1600000) :
    val_main_v29 (F := Ideal) x E W b (ix2 e (0 : Fin 129)) = time x W b (node E hE 1 e) :=
  (gather_dst x E W b hE e 0).trans (table_time x W b _)

theorem src_lin (x : FVec Ideal Sx .f32) (E : IVec Se 32) (W : FVec Ideal Sw .f32) (b : FVec Ideal Sb .f32)
    (hE : InRange E) (e : Fin 1600000) (k : Fin 127) :
    val_main_v22 (F := Ideal) x E W b (ix2 e (⟨1 + k.val, by omega⟩ : Fin 129)) = lin x W b (node E hE 0 e) (Fin.castSucc k) :=
  (gather_src x E W b hE e _).trans (table_lin x W b _ (Fin.castSucc k))

theorem dst_lin (x : FVec Ideal Sx .f32) (E : IVec Se 32) (W : FVec Ideal Sw .f32) (b : FVec Ideal Sb .f32)
    (hE : InRange E) (e : Fin 1600000) (k : Fin 127) :
    val_main_v29 (F := Ideal) x E W b (ix2 e (⟨1 + k.val, by omega⟩ : Fin 129)) = lin x W b (node E hE 1 e) (Fin.castSucc k) :=
  (gather_dst x E W b hE e _).trans (table_lin x W b _ (Fin.castSucc k))

/-! ## The score -/

theorem idx_v30_eq (e : Fin 1600000) : idx_main_v30 (idx_main_v31 (ix1 e)) = ix2 e (0 : Fin 129) :=
  funext fun a => Fin.ext (by match a with | ⟨0, _⟩ => exact Nat.div_one e.val | ⟨1, _⟩ => rfl)

theorem idx_v33_eq (e : Fin 1600000) : idx_main_v33 (idx_main_v34 (ix1 e)) = ix2 e (0 : Fin 129) :=
  funext fun a => Fin.ext (by match a with | ⟨0, _⟩ => exact Nat.div_one e.val | ⟨1, _⟩ => rfl)

theorem idx_v36_eq (e : Fin 1600000) (k : Fin 127) :
    idx_main_v36 (idx_main_v39 (ix1 e) k) = ix2 e (⟨1 + k.val, by omega⟩ : Fin 129) :=
  funext fun a => Fin.ext (by match a with | ⟨0, _⟩ => rfl | ⟨1, _⟩ => rfl)

theorem idx_v37_eq (e : Fin 1600000) (k : Fin 127) :
    idx_main_v37 (idx_main_v39 (ix1 e) k) = ix2 e (⟨1 + k.val, by omega⟩ : Fin 129) :=
  funext fun a => Fin.ext (by match a with | ⟨0, _⟩ => rfl | ⟨1, _⟩ => rfl)

/-- The reference's result at edge `e` is the edge score of the two nodes the edge names. -/
theorem ref_result (x : FVec Ideal Sx .f32) (E : IVec Se 32) (W : FVec Ideal Sw .f32) (b : FVec Ideal Sb .f32)
    (hE : InRange E) (e : Fin 1600000) :
    Cert.ReferenceIdeal.Read.val_main_v46 (F := Ideal) x E W b (ix1 e)
      = edgeScore x W b (node E hE 0 e) (node E hE 1 e) := by
  rw [val_main_v46_apply, val_main_v45_apply, val_main_v44_apply, val_main_call0_v4_apply, val_main_call0_v3_apply,
    val_main_cst_7_apply, val_main_call0_v2_apply, val_main_call0_v1_apply, val_main_call0_v0_apply,
    val_main_cst_6_apply, val_main_v43_apply, val_main_v42_apply, val_main_v41_apply, val_main_cst_5_apply,
    val_main_v40_apply, val_main_v35_apply, val_main_v32_apply, val_main_v31_apply, val_main_v30_apply,
    val_main_v34_apply, val_main_v33_apply, val_main_v39_apply, val_main_cst_4_apply]
  simp only [val_main_v38_apply, val_main_v36_apply, val_main_v37_apply, idx_v30_eq, idx_v33_eq, idx_v36_eq, idx_v37_eq,
    src_time x E W b hE, dst_time x E W b hE, src_lin x E W b hE, dst_lin x E W b hE,
    Ideal.hostUnary_exp_def, Ideal.hostNegf_def, Ideal.negf_def, Ideal.minimumf_def, Ideal.maximumf_def,
    Ideal.addf_def, Ideal.mulf_def, Ideal.ofBits_def, Ideal.ofBits_zero_f32, zero_add]
  rfl

end Cert.Lorentz.Ref

end
-- ==== Proof.lean ====
/-
  The certificate of a Lorentz linear layer followed by the Lorentzian edge score, kernel against reference, under the
  precondition that every float input is finite and every entry of the edge list is a node (`0 ≤ entry < 50000`).

  The kernel's program transposes the weight, runs one pipelined kernel over ten blocks of 5000 node rows — each row
  `x[n, ·]` mapped to `lin n j = Σ_k x[n, k] · W[j, k] + b[j]`, lifted by `time n = √(Σ_j (lin n j)² + 1)`, and stored as
  the 128 numbers `(time n, lin n 0, …, lin n 126)` — and then, in host lines, gathers the two rows each edge names and
  scores the edge by `exp (−clip (−(1 + a)))` with `a` the full dot product of the two rows less twice the product of
  their first entries. The reference keeps 129 numbers per node and takes `a = −time·time' + Σ_{j<127} lin_j · lin'_j`.

  • The frames: the two kernel programs run to the end without a fault and leave their four arguments as launched
    (Proof/FrameBits.lean, Proof/FrameIdeal.lean: one text at two float instances); the reference is its run.
  • `preserves`: the idealization rewrote nothing, so there is nothing to state.
  • `algebraic`: at the extended reals both programs end with the same array of scores, `edgeScore` of the two nodes
    of each edge (Proof/Spec.lean). The kernel's side: the output array is the table of kept rows
    (Proof/BlockValue.lean, Proof/TableValue.lean), the later lines read at an edge give `score (innerFull row row')`
    (Proof/TailValue.lean) — here the index precondition is used: an entry outside the table would be answered by a
    fill value on this side and by a clamped row on the other —, and on real rows the full and the split inner product
    are one number (Proof/PreFacts.lean, where finiteness is used: the cancelled term `time·time'` must be finite). The
    reference's side: its run read at an edge (Proof/RefValue.lean).
-/
import proofs.«417361_j56788057588127_3_alg».proof.Defs
import proofs.«417361_j56788057588127_3_alg».proof.Proof.Gen.Kernel
import proofs.«417361_j56788057588127_3_alg».proof.Proof.Gen.KernelIdeal
import proofs.«417361_j56788057588127_3_alg».proof.Proof.Gen.ReferenceIdeal
import proofs.«417361_j56788057588127_3_alg».proof.Proof.Gen.Pre_finite_inputs
import proofs.«417361_j56788057588127_3_alg».proof.Proof.Gen.ReferenceIdeal.Run
import proofs.«417361_j56788057588127_3_alg».proof.Proof.Gen.ReferenceIdeal.Read
import proofs.«417361_j56788057588127_3_alg».proof.Proof.FrameBits
import proofs.«417361_j56788057588127_3_alg».proof.Proof.FrameIdeal
import proofs.«417361_j56788057588127_3_alg».proof.Proof.KernelResult
import proofs.«417361_j56788057588127_3_alg».proof.Proof.RefValue
import proofs.«417361_j56788057588127_3_alg».proof.Proof.PreFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.Lorentz

theorem frame_kernel : Cert.frame_Kernel := fun m ρ _ => Cert.Kernel.Frm.frame m ρ

theorem frame_kernelIdeal : Cert.frame_KernelIdeal := fun m ρ _ => Cert.KernelIdeal.Frm.frame m ρ

/-- The reference has no kernel: its frame is its run with the result dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the edge list as launched and the result buffer at the array of scores. -/
theorem algebraic : Cert.algebraic_KernelIdeal_ReferenceIdeal := by
  intro m ρ m' ρ' hpre hagree
  have hf := fun c => Cert.Lorentz.Pre.facts_of_pre _ _ _ _ (hpre c)
  refine ⟨fun c => m ((c.tc : Thread Cert.KernelIdeal.nD Cert.KernelIdeal.τ).loc Cert.KernelIdeal.main_arg1),
    fun c => Cert.KernelIdeal.Result.scores m c (hf c).2.2.2, ?_, ?_⟩
  · refine (θ_run Cert.KernelIdeal.defs _ _).mono (fun r h c => ?_) (Cert.KernelIdeal.Frm.run_main (F := Ideal) m ρ)
    obtain ⟨k0, k1, k2, k3⟩ := Cert.KernelIdeal.Frm.args_kept m r h c
    refine ⟨k1, ?_, k0, k1, k2, k3⟩
    exact ((h c).2 Cert.KernelIdeal.main_v23 (Pipeline.mem_restRefs_of _ (by decide) (by decide))).trans
      (Cert.KernelIdeal.Result.result_eq m c (hf c).1 (hf c).2.1 (hf c).2.2.1 (hf c).2.2.2)
  · refine (θ_run Cert.ReferenceIdeal.defs _ _).mono (fun r h c => ?_) (Cert.ReferenceIdeal.Value.run (F := Ideal) m' ρ')
    obtain ⟨a0, a1, a2, a3⟩ := hagree c
    refine ⟨(h c).1.trans a1, (h c).2.1.trans ?_, (h c).2.2⟩
    rw [Cert.ReferenceIdeal.Read.val_main_v46_eq, a0, a1, a2, a3]
    funext i
    obtain ⟨e, rfl⟩ : ∃ e : Fin 1600000, i = ix1 e := ⟨i 0, eq_ix1 i⟩
    exact Cert.Lorentz.Ref.ref_result _ _ _ _ (hf c).2.2.2 e

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
